-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x16000000 : Shape := ⟨2, ![2, 16000000]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S2x16000000 : S_.BroadcastsInDim S2x16000000 (![] : Fin 0 → Fin S2x16000000.rank)
  reducesTo_S2x16000000_S_d0_1 : S2x16000000.ReducesTo [0, 1] S_

variable [Facts]

def fn {F : FTy → Type} [FloatOps F] (main_arg0 : FVec F S500000x2 .f32) (main_arg1 : IVec S2x16000000 32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_c_0 : IVec S_ 32 := constantI S_ 32 0#32
  let main_v4 : IVec S2x16000000 32 := broadcastInDim S2x16000000 ![] bcast_S_S2x16000000 main_c_0
  let main_v5 : IVec S2x16000000 1 := cmpi .sge main_arg1 main_v4
  let main_c_1 : IVec S_ 32 := constantI S_ 32 500000#32
  let main_v6 : IVec S2x16000000 32 := broadcastInDim S2x16000000 ![] bcast_S_S2x16000000 main_c_1
  let main_v7 : IVec S2x16000000 1 := cmpi .slt main_arg1 main_v6
  let main_v8 : IVec S2x16000000 1 := andi main_v5 main_v7
  let main_c_2 : IVec S_ 1 := constantI S_ 1 1#1
  let main_v9 : IVec S_ 1 := (fun x v => Host.reduce IntOp.andi x v reducesTo_S2x16000000_S_d0_1 h_S_) main_v8 main_c_2
  let main_v10 : IVec S_ 1 := andi main_v3 main_v9
  main_v10
-- ==== Kernel.lean ====
abbrev S500000x2 : Shape := ⟨2, ![500000, 2]⟩
abbrev S2x16000000 : Shape := ⟨2, ![2, 16000000]⟩
abbrev S1x16000000 : Shape := ⟨2, ![1, 16000000]⟩
abbrev S16000000 : Shape := ⟨1, ![16000000]⟩
abbrev S2x500000 : Shape := ⟨2, ![2, 500000]⟩
abbrev S_ : Shape := ⟨0, ![]⟩
abbrev S16000000x1 : Shape := ⟨2, ![16000000, 1]⟩
abbrev S1 : Shape := ⟨1, ![1]⟩
abbrev S1x1 : Shape := ⟨2, ![1, 1]⟩
abbrev S5x16000000 : Shape := ⟨2, ![5, 16000000]⟩
abbrev S2x128000 : Shape := ⟨2, ![2, 128000]⟩
abbrev S5x128000 : Shape := ⟨2, ![5, 128000]⟩
abbrev S128000 : Shape := ⟨1, ![128000]⟩
abbrev S1x128000 : Shape := ⟨2, ![1, 128000]⟩
abbrev S5x500000 : Shape := ⟨2, ![5, 500000]⟩
abbrev S500000x5 : Shape := ⟨2, ![500000, 5]⟩
abbrev S500000x1 : Shape := ⟨2, ![500000, 1]⟩
abbrev S500000x4 : Shape := ⟨2, ![500000, 4]⟩
abbrev S500000x6 : Shape := ⟨2, ![500000, 6]⟩

abbrev nBuf : Space → Nat
  | .hbm => 74
  | .vmem => 6
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S1x16000000, .i32⟩
  | .hbm, ⟨3, _⟩ => ⟨S16000000, .i32⟩
  | .hbm, ⟨4, _⟩ => ⟨S1x16000000, .i32⟩
  | .hbm, ⟨5, _⟩ => ⟨S16000000, .i32⟩
  | .hbm, ⟨6, _⟩ => ⟨S2x500000, .f32⟩
  | .hbm, ⟨7, _⟩ => ⟨S_, .i32⟩
  | .hbm, ⟨8, _⟩ => ⟨S16000000, .i32⟩
  | .hbm, ⟨9, _⟩ => ⟨S16000000, .i1⟩
  | .hbm, ⟨10, _⟩ => ⟨S_, .i32⟩
  | .hbm, ⟨11, _⟩ => ⟨S16000000, .i32⟩
  | .hbm, ⟨12, _⟩ => ⟨S16000000, .i32⟩
  | .hbm, ⟨13, _⟩ => ⟨S16000000, .i32⟩
  | .hbm, ⟨14, _⟩ => ⟨S16000000x1, .i32⟩
  | .hbm, ⟨15, _⟩ => ⟨S1, .i32⟩
  | .hbm, ⟨16, _⟩ => ⟨S_, .i32⟩
  | .hbm, ⟨17, _⟩ => ⟨S16000000x1, .i32⟩
  | .hbm, ⟨18, _⟩ => ⟨S16000000x1, .i1⟩
  | .hbm, ⟨19, _⟩ => ⟨S1x1, .i32⟩
  | .hbm, ⟨20, _⟩ => ⟨S16000000x1, .i32⟩
  | .hbm, ⟨21, _⟩ => ⟨S16000000x1, .i1⟩
  | .hbm, ⟨22, _⟩ => ⟨S16000000x1, .i1⟩
  | .hbm, ⟨23, _⟩ => ⟨S_, .i1⟩
  | .hbm, ⟨24, _⟩ => ⟨S16000000, .i1⟩
  | .hbm, ⟨25, _⟩ => ⟨S2x16000000, .f32⟩
  | .hbm, ⟨26, _⟩ => ⟨S2x16000000, .i1⟩
  | .hbm, ⟨27, _⟩ => ⟨S_, .f32⟩
  | .hbm, ⟨28, _⟩ => ⟨S2x16000000, .f32⟩
  | .hbm, ⟨29, _⟩ => ⟨S2x16000000, .f32⟩
  | .hbm, ⟨30, _⟩ => ⟨S_, .i32⟩
  | .hbm, ⟨31, _⟩ => ⟨S16000000, .i32⟩
  | .hbm, ⟨32, _⟩ => ⟨S16000000, .i1⟩
  | .hbm, ⟨33, _⟩ => ⟨S_, .i32⟩
  | .hbm, ⟨34, _⟩ => ⟨S16000000, .i32⟩
  | .hbm, ⟨35, _⟩ => ⟨S16000000, .i32⟩
  | .hbm, ⟨36, _⟩ => ⟨S16000000, .i32⟩
  | .hbm, ⟨37, _⟩ => ⟨S16000000x1, .i32⟩
  | .hbm, ⟨38, _⟩ => ⟨S1, .i32⟩
  | .hbm, ⟨39, _⟩ => ⟨S_, .i32⟩
  | .hbm, ⟨40, _⟩ => ⟨S16000000x1, .i32⟩
  | .hbm, ⟨41, _⟩ => ⟨S16000000x1, .i1⟩
  | .hbm, ⟨42, _⟩ => ⟨S1x1, .i32⟩
  | .hbm, ⟨43, _⟩ => ⟨S16000000x1, .i32⟩
  | .hbm, ⟨44, _⟩ => ⟨S16000000x1, .i1⟩
  | .hbm, ⟨45, _⟩ => ⟨S16000000x1, .i1⟩
  | .hbm, ⟨46, _⟩ => ⟨S_, .i1⟩
  | .hbm, ⟨47, _⟩ => ⟨S16000000, .i1⟩
  | .hbm, ⟨48, _⟩ => ⟨S2x16000000, .f32⟩
  | .hbm, ⟨49, _⟩ => ⟨S2x16000000, .i1⟩
  | .hbm, ⟨50, _⟩ => ⟨S_, .f32⟩
  | .hbm, ⟨51, _⟩ => ⟨S2x16000000, .f32⟩
  | .hbm, ⟨52, _⟩ => ⟨S2x16000000, .f32⟩
  | .hbm, ⟨53, _⟩ => ⟨S5x16000000, .f32⟩
  | .hbm, ⟨54, _⟩ => ⟨S_, .f32⟩
  | .hbm, ⟨55, _⟩ => ⟨S5x500000, .f32⟩
  | .hbm, ⟨56, _⟩ => ⟨S_, .i32⟩
  | .hbm, ⟨57, _⟩ => ⟨S16000000, .i32⟩
  | .hbm, ⟨58, _⟩ => ⟨S16000000, .i1⟩
  | .hbm, ⟨59, _⟩ => ⟨S_, .i32⟩
  | .hbm, ⟨60, _⟩ => ⟨S16000000, .i32⟩
  | .hbm, ⟨61, _⟩ => ⟨S16000000, .i32⟩
  | .hbm, ⟨62, _⟩ => ⟨S16000000, .i32⟩
  | .hbm, ⟨63, _⟩ => ⟨S16000000x1, .i32⟩
  | .hbm, ⟨64, _⟩ => ⟨S5x500000, .f32⟩
  | .hbm, ⟨65, _⟩ => ⟨S500000x5, .f32⟩
  | .hbm, ⟨66, _⟩ => ⟨S500000x1, .f32⟩
  | .hbm, ⟨67, _⟩ => ⟨S_, .f32⟩
  | .hbm, ⟨68, _⟩ => ⟨S500000x1, .f32⟩
  | .hbm, ⟨69, _⟩ => ⟨S500000x1, .f32⟩
  | .hbm, ⟨70, _⟩ => ⟨S500000x4, .f32⟩
  | .hbm, ⟨71, _⟩ => ⟨S500000x4, .f32⟩
  | .hbm, ⟨72, _⟩ => ⟨S500000x4, .f32⟩
  | .hbm, ⟨73, _⟩ => ⟨S500000x6, .f32⟩
  | .local _ .vmem, ⟨0, _⟩ => ⟨S2x128000, .f32⟩
  | .local _ .vmem, ⟨1, _⟩ => ⟨S2x128000, .f32⟩
  | .local _ .vmem, ⟨2, _⟩ => ⟨S2x128000, .f32⟩
  | .local _ .vmem, ⟨3, _⟩ => ⟨S2x128000, .f32⟩
  | .local _ .vmem, ⟨4, _⟩ => ⟨S5x128000, .f32⟩
  | .local _ .vmem, ⟨5, _⟩ => ⟨S5x128000, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v5 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v6 : Ref sig .tc := ⟨.hbm, 52, rfl⟩
abbrev main_v7 : Ref sig .tc := ⟨.hbm, 53, rfl⟩
abbrev main_cst : Ref sig .tc := ⟨.hbm, 54, rfl⟩
abbrev main_v8 : Ref sig .tc := ⟨.hbm, 55, rfl⟩
abbrev main_c : Ref sig .tc := ⟨.hbm, 56, rfl⟩
abbrev main_v9 : Ref sig .tc := ⟨.hbm, 57, rfl⟩
abbrev main_v10 : Ref sig .tc := ⟨.hbm, 58, rfl⟩
abbrev main_c_0 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst_1 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  transposes_S500000x2_S2x500000_1_0 : S500000x2.Transposes [1, 0] S2x500000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  h_S_ : 0 < S_.numel
  bcast_S16000000_S2x16000000_1 : S16000000.BroadcastsInDim S2x16000000 (![1] : Fin 1 → Fin S2x16000000.rank)
  bcast_S_S2x16000000 : S_.BroadcastsInDim S2x16000000 (![] : Fin 0 → Fin S2x16000000.rank)
  inb_S2x128000_S2x128000_0_0 : ∀ a, (![0, 0] : Fin 2 → Nat) a + S2x128000.size a ≤ S2x128000.size a
  h_S2x128000 : 0 < S2x128000.numel
  shapeCasts_S2x128000_S2x128000 : S2x128000.ShapeCasts S2x128000
  reduces_S2x128000_S128000 : S2x128000.Reduces [0] S128000
  shapeCasts_S128000_S1x128000 : S128000.ShapeCasts S1x128000
  broadcasts_S1x128000_S2x128000 : S1x128000.Broadcasts S2x128000
  inb_S5x128000_S2x128000_0_0 : ∀ a, (![0, 0] : Fin 2 → Nat) a + S2x128000.size a ≤ S5x128000.size a
  inb_S5x128000_S2x128000_2_0 : ∀ a, (![2, 0] : Fin 2 → Nat) a + S2x128000.size a ≤ S5x128000.size a
  inb_S5x128000_S1x128000_4_0 : ∀ a, (![4, 0] : Fin 2 → Nat) a + S1x128000.size a ≤ S5x128000.size a
  h_S1x128000 : 0 < S1x128000.numel
  bcast_S_S5x500000 : S_.BroadcastsInDim S5x500000 (![] : Fin 0 → Fin S5x500000.rank)
  transposes_S5x500000_S500000x5_1_0 : S5x500000.Transposes [1, 0] S500000x5
  slices_S500000x5_S500000x1_0_4 : S500000x5.Slices ![0, 4] S500000x1
  bcast_S_S500000x1 : S_.BroadcastsInDim S500000x1 (![] : Fin 0 → Fin S500000x1.rank)
  slices_S500000x5_S500000x4_0_0 : S500000x5.Slices ![0, 0] S500000x4
  bcast_S500000x1_S500000x4_0_1 : S500000x1.BroadcastsInDim S500000x4 (![0, 1] : Fin 2 → Fin S500000x4.rank)
  concatenates_S500000x4_S500000x2_S500000x6_d1 : Shape.Concatenates [S500000x4, S500000x2] S500000x6 1
  gather_S2x500000_S16000000x1_S2x16000000_0_1_n_n_1_1_21_wf : GatherDims.WF S2x500000 S16000000x1 S2x16000000 [0] [1] [] [1] [] 1 ![2, 1]
  scatter_S5x500000_S16000000x1_S5x16000000_0_1_1_1_wf : ScatterDims.WF S5x500000 S16000000x1 S5x16000000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128000.size a ≤ S2x16000000.size a
  hwx0_0 : ∀ i : grid0.Coords, EltTy.bits .f32 = 32 ∨ (Rect.block (s := S2x16000000) S2x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128000.size a ≤ S2x16000000.size a
  hwx0_1 : ∀ i : grid0.Coords, EltTy.bits .f32 = 32 ∨ (Rect.block (s := S2x16000000) S2x128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x128000.size a ≤ S5x16000000.size a
  hwx0_2 : ∀ i : grid0.Coords, EltTy.bits .f32 = 32 ∨ (Rect.block (s := S5x16000000) S5x128000.size (cc0_transform_2 i) (hinb0_2 i)).WholeWords (EltTy.packing .f32)

variable [Facts₀]

def gather_S2x500000_S16000000x1_S2x16000000_0_1_n_n_1_1_21 : GatherDims S2x500000 S16000000x1 S2x16000000 where
  offsetDims := [0]
  collapsedSliceDims := [1]
  operandBatchingDims := []
  startIndicesBatchingDims := []
  startIndexMap := [1]
  indexVectorDim := 1
  sliceSizes := ![2, 1]
  wf := gather_S2x500000_S16000000x1_S2x16000000_0_1_n_n_1_1_21_wf
def scatter_S5x500000_S16000000x1_S5x16000000_0_1_1_1 : ScatterDims S5x500000 S16000000x1 S5x16000000 where
  updateWindowDims := [0]
  insertedWindowDims := [1]
  scatterDimsToOperandDims := [1]
  indexVectorDim := 1
  wf := scatter_S5x500000_S16000000x1_S5x16000000_0_1_1_1_wf

abbrev win0_0 : Pipeline.Window sig grid0 :=
  Pipeline.Window.ofSpec (Memref.whole main_v5) S2x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5x128000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x2 : Shape := ⟨2, ![500000, 2]⟩
abbrev S2x16000000 : Shape := ⟨2, ![2, 16000000]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x2 : Shape := ⟨2, ![16000000, 2]⟩
abbrev S16000000x4 : Shape := ⟨2, ![16000000, 4]⟩
abbrev S500000x4 : Shape := ⟨2, ![500000, 4]⟩
abbrev S500000 : Shape := ⟨1, ![500000]⟩
abbrev S500000x1 : Shape := ⟨2, ![500000, 1]⟩
abbrev S500000x6 : Shape := ⟨2, ![500000, 6]⟩

abbrev nBuf : Space → Nat
  | .hbm => 53
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S1x16000000, .i32⟩
  | .hbm, ⟨3, _⟩ => ⟨S16000000, .i32⟩
  | .hbm, ⟨4, _⟩ => ⟨S1x16000000, .i32⟩
  | .hbm, ⟨5, _⟩ => ⟨S16000000, .i32⟩
  | .hbm, ⟨6, _⟩ => ⟨S_, .i32⟩
  | .hbm, ⟨7, _⟩ => ⟨S16000000, .i32⟩
  | .hbm, ⟨8, _⟩ => ⟨S16000000, .i1⟩
  | .hbm, ⟨9, _⟩ => ⟨S_, .i32⟩
  | .hbm, ⟨10, _⟩ => ⟨S16000000, .i32⟩
  | .hbm, ⟨11, _⟩ => ⟨S16000000, .i32⟩
  | .hbm, ⟨12, _⟩ => ⟨S16000000, .i32⟩
  | .hbm, ⟨13, _⟩ => ⟨S16000000x1, .i32⟩
  | .hbm, ⟨14, _⟩ => ⟨S16000000x2, .f32⟩
  | .hbm, ⟨15, _⟩ => ⟨S_, .i32⟩
  | .hbm, ⟨16, _⟩ => ⟨S16000000, .i32⟩
  | .hbm, ⟨17, _⟩ => ⟨S16000000, .i1⟩
  | .hbm, ⟨18, _⟩ => ⟨S_, .i32⟩
  | .hbm, ⟨19, _⟩ => ⟨S16000000, .i32⟩
  | .hbm, ⟨20, _⟩ => ⟨S16000000, .i32⟩
  | .hbm, ⟨21, _⟩ => ⟨S16000000, .i32⟩
  | .hbm, ⟨22, _⟩ => ⟨S16000000x1, .i32⟩
  | .hbm, ⟨23, _⟩ => ⟨S16000000x2, .f32⟩
  | .hbm, ⟨24, _⟩ => ⟨S16000000x2, .f32⟩
  | .hbm, ⟨25, _⟩ => ⟨S16000000x2, .f32⟩
  | .hbm, ⟨26, _⟩ => ⟨S_, .f32⟩
  | .hbm, ⟨27, _⟩ => ⟨S16000000, .f32⟩
  | .hbm, ⟨28, _⟩ => ⟨S16000000x1, .f32⟩
  | .hbm, ⟨29, _⟩ => ⟨S16000000x1, .f32⟩
  | .hbm, ⟨30, _⟩ => ⟨S_, .f32⟩
  | .hbm, ⟨31, _⟩ => ⟨S16000000x1, .f32⟩
  | .hbm, ⟨32, _⟩ => ⟨S16000000x1, .f32⟩
  | .hbm, ⟨33, _⟩ => ⟨S16000000x2, .f32⟩
  | .hbm, ⟨34, _⟩ => ⟨S16000000x2, .f32⟩
  | .hbm, ⟨35, _⟩ => ⟨S16000000x4, .f32⟩
  | .hbm, ⟨36, _⟩ => ⟨S_, .f32⟩
  | .hbm, ⟨37, _⟩ => ⟨S500000x4, .f32⟩
  | .hbm, ⟨38, _⟩ => ⟨S16000000x1, .i32⟩
  | .hbm, ⟨39, _⟩ => ⟨S500000x4, .f32⟩
  | .hbm, ⟨40, _⟩ => ⟨S_, .f32⟩
  | .hbm, ⟨41, _⟩ => ⟨S16000000, .f32⟩
  | .hbm, ⟨42, _⟩ => ⟨S_, .f32⟩
  | .hbm, ⟨43, _⟩ => ⟨S500000, .f32⟩
  | .hbm, ⟨44, _⟩ => ⟨S16000000x1, .i32⟩
  | .hbm, ⟨45, _⟩ => ⟨S500000, .f32⟩
  | .hbm, ⟨46, _⟩ => ⟨S_, .f32⟩
  | .hbm, ⟨47, _⟩ => ⟨S500000, .f32⟩
  | .hbm, ⟨48, _⟩ => ⟨S500000, .f32⟩
  | .hbm, ⟨49, _⟩ => ⟨S500000x1, .f32⟩
  | .hbm, ⟨50, _⟩ => ⟨S500000x4, .f32⟩
  | .hbm, ⟨51, _⟩ => ⟨S500000x4, .f32⟩
  | .hbm, ⟨52, _⟩ => ⟨S500000x6, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  reducesTo_S16000000x2_S16000000_d1 : S16000000x2.ReducesTo [1] S16000000
  h_S_ : 0 < S_.numel
  bcast_S_S16000000x1 : S_.BroadcastsInDim S16000000x1 (![] : Fin 0 → Fin S16000000x1.rank)
  bcast_S16000000x1_S16000000x2_0_1 : S16000000x1.BroadcastsInDim S16000000x2 (![0, 1] : Fin 2 → Fin S16000000x2.rank)
  concatenates_S16000000x2_S16000000x2_S16000000x4_d1 : Shape.Concatenates [S16000000x2, S16000000x2] S16000000x4 1
  bcast_S_S500000x4 : S_.BroadcastsInDim S500000x4 (![] : Fin 0 → Fin S500000x4.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  concatenates_S500000x4_S500000x2_S500000x6_d1 : Shape.Concatenates [S500000x4, S500000x2] S500000x6 1
  gather_S500000x2_S16000000x1_S16000000x2_1_0_n_n_0_1_12_wf : GatherDims.WF S500000x2 S16000000x1 S16000000x2 [1] [0] [] [0] [] 1 ![1, 2]
  scatter_S500000x4_S16000000x1_S16000000x4_1_0_0_1_wf : ScatterDims.WF S500000x4 S16000000x1 S16000000x4 [1] [0] [0] 1
  scatter_S500000_S16000000x1_S16000000_n_0_0_1_wf : ScatterDims.WF S500000 S16000000x1 S16000000 [] [0] [0] 1

variable [Facts₀]

def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x4_S16000000x1_S16000000x4_1_0_0_1 : ScatterDims S500000x4 S16000000x1 S16000000x4 where
  updateWindowDims := [1]
  insertedWindowDims := [0]
  scatterDimsToOperandDims := [0]
  indexVectorDim := 1
  wf := scatter_S500000x4_S16000000x1_S16000000x4_1_0_0_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

class Facts : Prop extends Facts₀ where

variable [Facts]
-- ==== Proof.Spec.lean ====
/-
  The result both programs compute, as ONE function of the node positions `pos : [500000, 2]` and the edge list
  `ei : [2, 16000000]` (row 0 the source node of each edge, row 1 its target node), index by index, over the extended reals.

  For an edge `e` with source `s` and target `t`: the coordinate difference `d r = pos s r - pos t r` (r = 0, 1), its
  length plus a small constant `‖d‖ + ε = √(d 0 · d 0 + d 1 · d 1) + ε`, and the message
  `(d 0, d 1, d 0 / (‖d‖ + ε), d 1 / (‖d‖ + ε))`, with a fifth component `1` that counts the edge.
  For a node `n`: the sum of the messages of the edges whose TARGET is `n`, divided by `max (number of such edges) 1`
  — the mean message, and zero for a node no edge points at —, followed by the node's own two coordinates.
-/
import Idealize.ShloMosaic.PureOps.Ideal
import Idealize.ShloMosaic.PureOps.Ideal.Laws
import Idealize.ShloMosaic.Lib.ValueIdx

noncomputable section

namespace Cert.MeanMsg

open Idealize.ShloMosaic Idealize.ShloMosaic.ValueIdx
open scoped BigOperators

/-- The three constants both programs carry as the same binary words: zero, one, and ε = f32(1e-6). -/
abbrev zero : EReal := Ideal.ofBits .f32 0x00000000#32
abbrev one : EReal := Ideal.ofBits .f32 0x3F800000#32
abbrev eps : EReal := Ideal.ofBits .f32 0x358637BD#32

/-- The node an index word names. (A word that names no node reads as node 0; under the index-range hypothesis every
    word names a node, and this branch is never taken.) -/
def node (w : BitVec 32) : Fin 500000 := if h : w.toNat < 500000 then ⟨w.toNat, h⟩ else ⟨0, by decide⟩

/-- Every index word of the edge list, read signed, names a node. -/
def InRange (ei : IVec (⟨2, ![2, 16000000]⟩ : Shape) 32) : Prop :=
  ∀ i, 0 ≤ (ei i).toInt ∧ (ei i).toInt < 500000

/-- The gathered endpoint rows: coordinate `r` of the node that row `row` of the edge list names for edge `e`, laid out
    [2, E] (coordinates on axis 0, edges on axis 1). -/
def endpoint (pos : (⟨2, ![500000, 2]⟩ : Shape).Idx → EReal) (ei : IVec (⟨2, ![2, 16000000]⟩ : Shape) 32) (row : Fin 2) :
    (⟨2, ![2, 16000000]⟩ : Shape).Idx → EReal :=
  fun i => pos (ix2 (node (ei (ix2 row (i 1)))) (i 0))

section Message

variable {W : Nat} (xs xd : (⟨2, ![2, W]⟩ : Shape).Idx → EReal)

/-- Coordinate `r` of the difference of edge `e`'s endpoints. -/
def dcoord (e : Fin W) (r : Fin 2) : EReal := xs (ix2 r e) - xd (ix2 r e)

/-- The length of that difference, plus ε. -/
def lenEps (e : Fin W) : EReal := Ideal.sqrt (∑ r : Fin 2, dcoord xs xd e r * dcoord xs xd e r) + eps

/-- Component `k` of edge `e`'s message: the difference, the difference over its length plus ε, and the count `1`. -/
def msgAt (e : Fin W) (k : Fin 5) : EReal :=
  match k with
  | ⟨0, _⟩ => dcoord xs xd e 0
  | ⟨1, _⟩ => dcoord xs xd e 1
  | ⟨2, _⟩ => Ideal.div (dcoord xs xd e 0) (lenEps xs xd e)
  | ⟨3, _⟩ => Ideal.div (dcoord xs xd e 1) (lenEps xs xd e)
  | ⟨_ + 4, _⟩ => one

/-- The messages laid out [5, W]: components on axis 0, edges on axis 1. -/
def msgArr : (⟨2, ![5, W]⟩ : Shape).Idx → EReal := fun i => msgAt xs xd (i 1) (i 0)

end Message

/-- The sum of `f e` over the edges `e` whose target word, read signed, is `n`. -/
def segSum (ei : IVec (⟨2, ![2, 16000000]⟩ : Shape) 32) (n : Fin 500000) (f : Fin 16000000 → EReal) : EReal :=
  ∑ e ∈ Finset.univ.filter (fun e : Fin 16000000 => (ei (ix2 (1 : Fin 2) e)).toInt = (n.val : ℤ)), f e

/-- The result: for node `n`, components 0–3 the mean message of the edges into `n`, components 4–5 its coordinates. -/
def G (pos : (⟨2, ![500000, 2]⟩ : Shape).Idx → EReal) (ei : IVec (⟨2, ![2, 16000000]⟩ : Shape) 32) :
    (⟨2, ![500000, 6]⟩ : Shape).Idx → EReal :=
  fun i =>
    if h : (i 1).val < 4 then
      Ideal.div (zero + segSum ei (i 0) (fun e => msgAt (endpoint pos ei 0) (endpoint pos ei 1) e ⟨(i 1).val, by omega⟩))
        (max (zero + segSum ei (i 0) (fun _ => one)) one)
    else pos (ix2 (i 0) ⟨(i 1).val - 4, by have h6 : (i 1).val < 6 := (i 1).isLt; omega⟩)

end Cert.MeanMsg

end
-- ==== Proof.KernelRegion.lean ====
/-
  The kernel's region: what the message array holds when the grid has run.

  The grid has 125 points; at point `t` the pipeline stages block `t` of the two gathered endpoint arrays [2, 16000000]
  (128000 edges: the edges `128000 t … 128000 t + 127999`) and writes back block `t` of the message array [5, 16000000].
  The body stores three pieces into the output block: the coordinate differences (rows 0–1), the differences over
  the length plus ε (rows 2–3), and the constant one (row 4). Each piece is the restriction of ONE function of the block
  index, `msgArr x0 x1` of the two input blocks, so the block the body leaves is that function; read through the
  windows, entry (k, q) of block `t` is component k of the message of edge `128000 t + q`; and the 125 blocks tile the
  array, so the array ends holding `msgArr` of the two gathered arrays.
-/
import proofs.«423772_j49237505081482_3_alg».proof.Proof.Gen.KernelIdeal.Frame
import proofs.«423772_j49237505081482_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen Cert.MeanMsg

variable (m : (ℓ : Loc nD τ sig) → Buf (Elt Ideal) ℓ)

theorem hz2 : (![0, 0] : Fin 2 → Nat) = fun _ => 0 := funext fun a => by fin_cases a <;> rfl

/-- The first payload: the coordinate differences. -/
theorem pay1_apply (x0 x1 : FVec Ideal S2x128000 .f32) (p : Fin 2) (q : Fin 128000) :
    k0_pay1 (F := Ideal) x0 x1 (ix2 p q) = dcoord x0 x1 q p := by
  unfold k0_pay1
  simp only [shapeCast_self]
  rfl

/-- A square root taken entry by entry, read at an index. -/
theorem sqrt_apply {s : Shape} {φ : FTy} (a : FVec Ideal s φ) (i : s.Idx) : sqrt a i = Ideal.sqrt (a i) := rfl

/-- The second payload: each difference over the length plus ε. -/
theorem pay2_apply (x0 x1 : FVec Ideal S2x128000 .f32) (p : Fin 2) (q : Fin 128000) :
    k0_pay2 (F := Ideal) x0 x1 (ix2 p q) = Ideal.div (dcoord x0 x1 q p) (lenEps x0 x1 q) := by
  unfold k0_pay2
  dsimp only
  refine (divf_apply _ _ _).trans ?_
  refine congrArg₂ Ideal.div (pay1_apply x0 x1 p q) ?_
  refine (broadcastTo_1b_ab_apply _ _ p q).trans ?_
  refine (addf_apply _ _ _).trans ?_
  unfold lenEps
  refine congrArg₂ (· + ·) ?_ rfl
  refine (sqrt_apply _ _).trans ?_
  refine congrArg Ideal.sqrt ?_
  refine (shapeCast_a_1a_apply _ _ 0 q).trans ?_
  refine (Ideal.multiReduction_add_single _ 0x00000000#32 reduces_S2x128000_S128000 _ _ (ix1 q)).trans ?_
  refine Finset.sum_congr rfl fun r _ => ?_
  refine (mulf_apply _ _ _).trans ?_
  exact congrArg₂ (· * ·) (pay1_apply x0 x1 r q) (pay1_apply x0 x1 r q)

/-- The third payload: the count. -/
theorem pay3_apply (p : Fin 1) (q : Fin 128000) : k0_pay3 (F := Ideal) (ix2 p q) = one := rfl

theorem out_block (c : Dev nD) (i : grid0.Coords) (a1 : Memref sig .tc .vmem S2x128000 .f32) (h1 : a1.IsWhole)
    (a2 : Memref sig .tc .vmem S2x128000 .f32) (h2 : a2.IsWhole) (a3 : Memref sig .tc .vmem S5x128000 .f32) (h3 : a3.IsWhole)
    (x0 x1 : Vec Ideal S2x128000 .f32) :
    out0_A_2 (F := Ideal) c i a1 h1 a2 h2 a3 h3 x0 x1 = msgArr x0 x1 := by
  unfold out0_A_2
  rw [View.read_writes_eq_canon _ _ _ (cover0_A_2 c i a1 h1 a2 h2 a3 h3 x0 x1)]
  funext y
  refine View.canon_apply_of_pieces (msgArr x0 x1) _ ?_ y (cover0_A_2 c i a1 h1 a2 h2 a3 h3 x0 x1 y)
  unfold kernelRun0_A
  dsimp only
  simp only [View.readAt_eq_ld, h1.read_unread, h2.read_unread, View.ld_unit_zero (S := S2x128000) hz2]
  intro pc hpc
  simp only [List.mem_cons, List.mem_nil_iff, or_false] at hpc
  rcases hpc with rfl | rfl | rfl
  · intro x
    obtain ⟨p, q, rfl⟩ : ∃ (p : Fin 1) (q : Fin 128000), x = ix2 p q := ⟨x 0, x 1, eq_ix2 x⟩
    have he : (Rect.unit (s := S5x128000) ![4, 0] ![1, 128000] inb_S5x128000_S1x128000_4_0).emb (ix2 p q) = ix2 (⟨4, by decide⟩ : Fin 5) q := by
      funext a; apply Fin.ext
      match a with
      | ⟨0, _⟩ => show 4 + 1 * (p : Nat) = 4; omega
      | ⟨1, _⟩ => show 0 + 1 * (q : Nat) = q; omega
    show k0_pay3 (F := Ideal) (ix2 p q) = msgArr x0 x1 _
    rw [he]; rfl
  · intro x
    obtain ⟨p, q, rfl⟩ : ∃ (p : Fin 2) (q : Fin 128000), x = ix2 p q := ⟨x 0, x 1, eq_ix2 x⟩
    have he : (Rect.unit (s := S5x128000) ![2, 0] ![2, 128000] inb_S5x128000_S2x128000_2_0).emb (ix2 p q) = ix2 (⟨2 + p.val, by omega⟩ : Fin 5) q := by
      funext a; apply Fin.ext
      match a with
      | ⟨0, _⟩ => show 2 + 1 * (p : Nat) = 2 + p; omega
      | ⟨1, _⟩ => show 0 + 1 * (q : Nat) = q; omega
    show k0_pay2 (F := Ideal) x0 x1 (ix2 p q) = msgArr x0 x1 _
    rw [he, pay2_apply]
    match p with
    | ⟨0, _⟩ => rfl
    | ⟨1, _⟩ => rfl
  · intro x
    obtain ⟨p, q, rfl⟩ : ∃ (p : Fin 2) (q : Fin 128000), x = ix2 p q := ⟨x 0, x 1, eq_ix2 x⟩
    have he : (Rect.unit (s := S5x128000) ![0, 0] ![2, 128000] inb_S5x128000_S2x128000_0_0).emb (ix2 p q) = ix2 (⟨p.val, by omega⟩ : Fin 5) q := by
      funext a; apply Fin.ext
      match a with
      | ⟨0, _⟩ => show 0 + 1 * (p : Nat) = p; omega
      | ⟨1, _⟩ => show 0 + 1 * (q : Nat) = q; omega
    show k0_pay1 (F := Ideal) x0 x1 (ix2 p q) = msgArr x0 x1 _
    rw [he, pay1_apply]
    match p with
    | ⟨0, _⟩ => rfl
    | ⟨1, _⟩ => rfl

/-- A message depends on the endpoint arrays only through the two endpoints of its own edge. -/
theorem msgAt_congr {W W' : Nat} (xs xd : (⟨2, ![2, W]⟩ : Shape).Idx → EReal) (xs' xd' : (⟨2, ![2, W']⟩ : Shape).Idx → EReal)
    (e : Fin W) (e' : Fin W') (k : Fin 5) (hs : ∀ r, xs (ix2 r e) = xs' (ix2 r e')) (hd : ∀ r, xd (ix2 r e) = xd' (ix2 r e')) :
    msgAt xs xd e k = msgAt xs' xd' e' k := by
  have hdc : ∀ r, dcoord xs xd e r = dcoord xs' xd' e' r := fun r => by unfold dcoord; rw [hs r, hd r]
  have hl : lenEps xs xd e = lenEps xs' xd' e' := by unfold lenEps; simp only [hdc]
  match k with
  | ⟨0, _⟩ => exact hdc 0
  | ⟨1, _⟩ => exact hdc 1
  | ⟨2, _⟩ => show Ideal.div _ _ = Ideal.div _ _; rw [hdc 0, hl]
  | ⟨3, _⟩ => show Ideal.div _ _ = Ideal.div _ _; rw [hdc 1, hl]
  | ⟨4, _⟩ => rfl

/-- The index maps, decided over the 125 grid points: at point `t` every window is on block (0, t). -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem col_lt (t : Fin cfg0.N) (q : Fin 128000) : 128000 * t.val + q.val < 16000000 := by
  have hN : cfg0.N = 125 := N_0
  have h := t.isLt
  have := q.isLt; omega

/-- Edge `q` of block `t` is edge `128000 t + q` of the whole list. -/
abbrev col (t : Fin cfg0.N) (q : Fin 128000) : Fin 16000000 := ⟨128000 * t.val + q.val, col_lt t q⟩

/-- Where entry (r, q) of an input block at point `t` sits in its gathered array: the same row, edge `128000 t + q`. -/
theorem emb0_apply (t : Fin cfg0.N) (r : Fin 2) (q : Fin 128000) :
    ((cfg0.win 0).blk t).view.emb (ix2 r q) = (ix2 r (col t q) : S2x16000000.Idx) := by
  obtain ⟨e0, e1, -, -, -, -⟩ := idx_facts t
  funext a; apply Fin.ext
  match a with
  | ⟨0, _⟩ => show win0_0.index t (0 : Fin 2) * 2 + 1 * r.val = r.val; omega
  | ⟨1, _⟩ => show win0_0.index t (1 : Fin 2) * 128000 + 1 * q.val = 128000 * t.val + q.val; omega

theorem emb1_apply (t : Fin cfg0.N) (r : Fin 2) (q : Fin 128000) :
    ((cfg0.win 1).blk t).view.emb (ix2 r q) = (ix2 r (col t q) : S2x16000000.Idx) := by
  obtain ⟨-, -, e2, e3, -, -⟩ := idx_facts t
  funext a; apply Fin.ext
  match a with
  | ⟨0, _⟩ => show win0_1.index t (0 : Fin 2) * 2 + 1 * r.val = r.val; omega
  | ⟨1, _⟩ => show win0_1.index t (1 : Fin 2) * 128000 + 1 * q.val = 128000 * t.val + q.val; omega

/-- Where entry (k, q) of the output block at point `t` sits in the message array. -/
theorem emb2_apply (t : Fin cfg0.N) (k : Fin 5) (q : Fin 128000) :
    ((cfg0.win 2).blk t).view.emb (ix2 k q) = (ix2 k (col t q) : S5x16000000.Idx) := by
  obtain ⟨-, -, -, -, e4, e5⟩ := idx_facts t
  funext a; apply Fin.ext
  match a with
  | ⟨0, _⟩ => show win0_2.index t (0 : Fin 2) * 5 + 1 * k.val = k.val; omega
  | ⟨1, _⟩ => show win0_2.index t (1 : Fin 2) * 128000 + 1 * q.val = 128000 * t.val + q.val; omega

/-- The messages of the two input blocks at point `t`, read out of ANY two endpoint arrays, are block `t` of those arrays'
    message array: entry (k, q) of the block is message component k of edge `128000 t + q`, whose endpoints the input blocks hold at q. -/
theorem msg_blocks (t : Fin cfg0.N) (A B : S2x16000000.Idx → EReal) :
    (cfg0.win 2).cut (grid0.coords t)
        (msgArr (((cfg0.win 0).blk t).view.read (Elt Ideal) A) (((cfg0.win 1).blk t).view.read (Elt Ideal) B))
      = ((cfg0.win 2).blk t).view.read (Elt Ideal) (msgArr A B) := by
  funext (y : S5x128000.Idx)
  obtain ⟨k, q, rfl⟩ : ∃ (k : Fin 5) (q : Fin 128000), y = ix2 k q := ⟨y 0, y 1, eq_ix2 y⟩
  rw [View.read_apply, emb2_apply]
  refine msgAt_congr _ _ A B q (col t q) k (fun r => ?_) (fun r => ?_)
  · rw [View.read_apply, emb0_apply]; rfl
  · rw [View.read_apply, emb1_apply]; rfl

/-- WHAT POINT `t` WRITES BACK is block `t` of the message array of the gathered endpoint arrays. -/
theorem flushed_eq (c : Dev nD) (t : Fin cfg0.N) :
    (dats m 0 c).flushed 2 t = ((cfg0.win 2).blk t).view.read (Elt Ideal)
      (msgArr (V m c main_v5 : S2x16000000.Idx → EReal) (V m c main_v6 : S2x16000000.Idx → EReal)) := by
  show (cfg0.win 2).cut (grid0.coords t) ((dats m 0 c).after 2 t) = _
  rw [after0_2]
  unfold outsAt0
  rw [out_block c (grid0.coords t) (ms0_0 t) (hs0_0 t) (ms0_1 t) (hs0_1 t) (ms0_2 t) (hs0_2 t) (iblk m c 0 t) (iblk m c 1 t)]
  unfold iblk
  exact msg_blocks t _ _

/-- An index of the message array is in point `t`'s block iff each coordinate is in the block's range on its axis. -/
theorem mem_blk (t : Fin cfg0.N) (i : S5x16000000.Idx) :
    i ∈ ((cfg0.win 2).blk t).view.set ↔ ∀ a : Fin 2, win0_2.index t a * S5x128000.size a ≤ (i a).val ∧ (i a).val < win0_2.index t a * S5x128000.size a + S5x128000.size a := by
  show i ∈ ((View.whole main_v7).slice (win0_2.rect t)).set ↔ _
  rw [View.set_slice_whole, Rect.mem_set_unit]
  exact Iff.rfl

/-- THE MESSAGE ARRAY after the region: every entry is some point's — the 125 blocks of 128000 edges tile the 16000000. -/
theorem region_out (c : Dev nD) : (dats m 0 c).arrAt 2 cfg0.N
    = msgArr (V m c main_v5 : S2x16000000.Idx → EReal) (V m c main_v6 : S2x16000000.Idx → EReal) :=
  (dats m 0 c).arrAt_eq_of_cover 2 _ (fun t _ => flushed_eq m c t) fun i => by
    have hi0 : (i 0).val < 5 := (i 0).isLt
    have hi1 : (i 1).val < 16000000 := (i 1).isLt
    have hN : cfg0.N = 125 := N_0
    obtain ⟨t, ht⟩ : ∃ t : Fin cfg0.N, t.val = (i 1).val / 128000 := ⟨⟨(i 1).val / 128000, by rw [hN]; omega⟩, rfl⟩
    obtain ⟨-, -, -, -, e4, e5⟩ := idx_facts t
    refine ⟨t, flush0_2 t, ?_⟩
    rw [mem_blk]
    intro a
    match a with
    | ⟨0, _⟩ => show win0_2.index t (0 : Fin 2) * 5 ≤ (i 0).val ∧ (i 0).val < win0_2.index t (0 : Fin 2) * 5 + 5; omega
    | ⟨1, _⟩ => show win0_2.index t (1 : Fin 2) * 128000 ≤ (i 1).val ∧ (i 1).val < win0_2.index t (1 : Fin 2) * 128000 + 128000; omega

end Cert.KernelIdeal.Region

end
-- ==== Proof.KernelTake.lean ====
/-
  THE HOST PREFIX OF THE KERNEL PROGRAM: what the two gathered arrays hold when the region is entered.
  Before the region @main slices the edge list into its source words (row 0) and target words (row 1), transposes the
  position table to [2, N], and takes the table's columns at each row of words: a word below zero is wrapped once by
  the table's length, the wrapped word is tested against [0, N − 1], the column it names (read signed and clamped) is
  gathered, and the gathered value is kept where the test holds, a constant elsewhere. Under the index-range hypothesis
  every word reads in [0, N): no word is wrapped, the test holds at every edge, the clamp changes nothing, and the
  take is coordinate r of the node the word names — the specification's endpoint rows.
  First the operations' terms over plain arrays and their values at an index; then the region-entry contents: the
  fold over the three stretches of operations is the folds in turn, the two takes are read over an arbitrary
  valuation (each typed reference's transport to its buffer's type and back cancelling), and the first stretch's
  results are read separately.
-/
import proofs.«423772_j49237505081482_3_alg».proof.Proof.Gen.KernelIdeal.Frame
import proofs.«423772_j49237505081482_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.ReduceAll

noncomputable section

namespace Cert.KernelIdeal.Take

open Idealize.ShloMosaic Idealize.ShloMosaic.TcCoe Idealize.SL.Sem Idealize.ShloMosaic.ValueIdx
open Cert.KernelIdeal Cert.KernelIdeal.Gen Cert.MeanMsg
open Idealize.ShloMosaic.StableHlo

/-! ## The host operations before the region, as terms over plain arrays -/

/-- Row 0 of the edge list as a vector: the slice `[0:1, :]` reshaped to `[E]`. -/
def srcWords (ei : IVec S2x16000000 32) : IVec S16000000 32 :=
  shapeCast S16000000 (extractStridedSlice S1x16000000 ![0, 0] ei slices_S2x16000000_S1x16000000_0_0) shapeCasts_S1x16000000_S16000000
/-- Row 1 of the edge list as a vector: the slice `[1:2, :]` reshaped to `[E]`. -/
def dstWords (ei : IVec S2x16000000 32) : IVec S16000000 32 :=
  shapeCast S16000000 (extractStridedSlice S1x16000000 ![1, 0] ei slices_S2x16000000_S1x16000000_1_0) shapeCasts_S1x16000000_S16000000
/-- The position table transposed to `[2, N]`. -/
def posT {F : FTy → Type} (pos : FVec F S500000x2 .f32) : FVec F S2x500000 .f32 :=
  transpose S2x500000 [1, 0] pos transposes_S500000x2_S2x500000_1_0

/-- An index word below zero wrapped once by the table's length, any other word kept. -/
def wrapW (w : IVec S16000000 32) : IVec S16000000 32 :=
  select (cmpi .slt w (broadcastInDim S16000000 ![] bcast_S_S16000000 (constantI S_ 32 0#32)))
    (addi w (broadcastInDim S16000000 ![] bcast_S_S16000000 (constantI S_ 32 500000#32))) w
/-- The wrapped words as a column `[E, 1]`: the gather's start indices. -/
def colW (w : IVec S16000000 32) : IVec S16000000x1 32 :=
  broadcastInDim S16000000x1 ![0] bcast_S16000000_S16000000x1_0 (wrapW w)
/-- The range test on the wrapped words: `0 ≤ w' ∧ w' ≤ 499999`, elementwise on the column. -/
def testW (w : IVec S16000000 32) : IVec S16000000x1 1 :=
  andi (cmpi .sge (colW w) (broadcastInDim S16000000x1 ![] bcast_S_S16000000x1 (constantI S_ 32 0#32)))
    (cmpi .sle (colW w) (broadcastInDim S16000000x1 ![0, 1] bcast_S1x1_S16000000x1_0_1
      (broadcastInDim S1x1 ![1] bcast_S1_S1x1_1 (constantI S1 32 499999#32))))
/-- The test reduced by `and` over the column's unit axis. -/
def okW (w : IVec S16000000 32) : IVec S16000000 1 :=
  Host.reduce IntOp.andi (testW w) (constantI S_ 1 1#1) reducesTo_S16000000x1_S16000000_d1 h_S_
/-- The take: column `w'` of the table where the test holds, a constant elsewhere. -/
def takeTerm {F : FTy → Type} [FloatOps F] (T : FVec F S2x500000 .f32) (w : IVec S16000000 32) : FVec F S2x16000000 .f32 :=
  select (broadcastInDim S2x16000000 ![1] bcast_S16000000_S2x16000000_1 (okW w))
    (Host.gather gather_S2x500000_S16000000x1_S2x16000000_0_1_n_n_1_1_21 T (colW w))
    (broadcastInDim S2x16000000 ![] bcast_S_S2x16000000 (constant S_ .f32 0x7FC00000#32))

/-! ## The terms read at an index -/

/-- A word that reads nonnegative reads the same signed and unsigned. -/
theorem toInt_eq_toNat {x : BitVec 32} (h : 0 ≤ x.toInt) : x.toInt = (x.toNat : ℤ) := by
  have h1 := BitVec.toInt_eq_toNat_cond x
  have h2 := x.isLt
  split at h1 <;> omega

/-- Row 0 of the edge list at `e`. -/
theorem srcWords_apply (ei : IVec S2x16000000 32) (e : Fin 16000000) : srcWords ei (ix1 e) = ei (ix2 (0 : Fin 2) e) := by
  unfold srcWords
  rw [shapeCast_1a_a_apply, slice2_axis0_eq]
  rfl
/-- Row 1 of the edge list at `e`. -/
theorem dstWords_apply (ei : IVec S2x16000000 32) (e : Fin 16000000) : dstWords ei (ix1 e) = ei (ix2 (1 : Fin 2) e) := by
  unfold dstWords
  rw [shapeCast_1a_a_apply, slice2_axis0_eq]
  rfl
/-- The transposed table at `(r, n)`. -/
theorem posT_apply {F : FTy → Type} (pos : FVec F S500000x2 .f32) (r : Fin 2) (n : Fin 500000) : posT pos (ix2 r n) = pos (ix2 n r) := by
  unfold posT
  exact transpose_ix2_apply pos _ r n

/-- A word that reads nonnegative is not wrapped. -/
theorem wrapW_of_nonneg (w : IVec S16000000 32) (hw : ∀ i, 0 ≤ (w i).toInt) : wrapW w = w := by
  funext i
  show Scalar.select (IntOp.cmpi .slt (w i) 0#32) (IntOp.addi (w i) 500000#32) (w i) = w i
  have hc : ¬ IntOp.cmpi .slt (w i) 0#32 = 1#1 := by
    rw [IntOp.cmpi_slt, show (0#32 : BitVec 32).toInt = 0 from by decide]
    have := hw i; omega
  exact if_neg hc

/-- The column of start indices at `(e, 0)` is the wrapped word of `e`. -/
theorem colW_apply (w : IVec S16000000 32) (e : Fin 16000000) (z : Fin 1) : colW w (ix2 e z) = wrapW w (ix1 e) := by
  unfold colW
  refine broadcastInDim_apply _ _ _ _ (ix1 e) fun a => ?_
  match a with
  | ⟨0, h0⟩ =>
    have hne : ¬ S16000000.size ⟨0, h0⟩ = 1 := by show ¬ (16000000 : ℕ) = 1; decide
    rw [if_neg hne]
    rfl

/-- Every element of the column is some element of the wrapped words. -/
theorem colW_mem (w : IVec S16000000 32) (i : S16000000x1.Idx) : ∃ k, colW w i = wrapW w k := ⟨_, rfl⟩

/-- When every word reads in `[0, 500000)` the range test holds everywhere. -/
theorem testW_eq_one (w : IVec S16000000 32) (hw : ∀ i, 0 ≤ (w i).toInt ∧ (w i).toInt < 500000) (i : S16000000x1.Idx) :
    testW w i = 1#1 := by
  obtain ⟨k, hk⟩ := colW_mem w i
  rw [wrapW_of_nonneg w fun i => (hw i).1] at hk
  show IntOp.andi (IntOp.cmpi .sge (colW w i) 0#32) (IntOp.cmpi .sle (colW w i) 499999#32) = 1#1
  rw [hk, IntOp.andi_eq_one, IntOp.cmpi_sge, IntOp.cmpi_sle, show (0#32 : BitVec 32).toInt = 0 from by decide,
    show (499999#32 : BitVec 32).toInt = 499999 from by decide]
  have := hw k
  omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- When every word reads in `[0, 500000)` the reduced test is 1 at every edge. -/
theorem okW_eq_one (w : IVec S16000000 32) (hw : ∀ i, 0 ≤ (w i).toInt ∧ (w i).toInt < 500000) (j : S16000000.Idx) :
    okW w j = 1#1 := by
  unfold okW
  rw [Host.reduce_eq_foldl]
  exact foldl_andi_ones (testW w) (testW_eq_one w hw) _

/-! ## The gather read at an index -/

section Gather

local notation "gd" => gather_S2x500000_S16000000x1_S2x16000000_0_1_n_n_1_1_21

/-- Result index `(r, e)` reads its one start-index component at `(e, 0)` of the start indices. -/
theorem gd_siIdx (r : Fin 2) (e : Fin 16000000) (c : Fin (gd).startIndexMap.length) :
    (gd).siIdx (ix2 r e) c = ix2 e (0 : Fin 1) := by
  funext b; refine Fin.ext ?_
  match b with
  | ⟨0, _⟩ => rfl
  | ⟨1, _⟩ =>
    show c.val = 0
    have : c.val < 1 := c.isLt
    omega

/-- No start index names operand axis 0. -/
theorem gd_start0 (j : S2x16000000.Idx) (idx : IVec S16000000x1 32) (h0) : (gd).start j idx ⟨0, h0⟩ = 0 := by
  have hm : (⟨0, h0⟩ : Fin S2x500000.rank) ∉ (gd).startIndexMap := by
    show (0 : Fin 2) ∉ ([1] : List (Fin 2)); decide
  unfold GatherDims.start
  rw [dif_neg hm]

/-- On operand axis 1 the slice starts at the start index of `e`, read signed and clamped into `[0, 499999]`. -/
theorem gd_start1 (r : Fin 2) (e : Fin 16000000) (idx : IVec S16000000x1 32) (h1) :
    (gd).start (ix2 r e) idx ⟨1, h1⟩ = min (idx (ix2 e (0 : Fin 1))).toInt.toNat 499999 := by
  have hm : (⟨1, h1⟩ : Fin S2x500000.rank) ∈ (gd).startIndexMap := by
    show (1 : Fin 2) ∈ ([1] : List (Fin 2)); decide
  unfold GatherDims.start
  rw [dif_pos hm, gd_siIdx]
  rfl

/-- On operand axis 0 the offset coordinate is the result's row. -/
theorem gd_off0 (r : Fin 2) (e : Fin 16000000) (h0) : (gd).offCoord (ix2 r e) ⟨0, h0⟩ = r.val := by
  have hm : (⟨0, h0⟩ : Fin S2x500000.rank) ∈ (gd).sKept := by
    show (0 : Fin 2) ∈ (List.finRange 2).filter (· ∉ (([1] : List (Fin 2)) ++ [])); decide
  unfold GatherDims.offCoord
  rw [dif_pos hm]
  rfl

/-- Operand axis 1 is collapsed: offset coordinate 0. -/
theorem gd_off1 (j : S2x16000000.Idx) (h1) : (gd).offCoord j ⟨1, h1⟩ = 0 := by
  have hm : (⟨1, h1⟩ : Fin S2x500000.rank) ∉ (gd).sKept := by
    show (1 : Fin 2) ∉ (List.finRange 2).filter (· ∉ (([1] : List (Fin 2)) ++ [])); decide
  exact GatherDims.offCoord_eq_zero _ _ _ hm

/-- No operand axis is a batching axis. -/
theorem gd_batch (j : S2x16000000.Idx) (a : Fin S2x500000.rank) : (gd).batchCoord j a = 0 :=
  GatherDims.batchCoord_eq_zero _ _ _ (by show a ∉ ([] : List (Fin 2)); exact List.not_mem_nil)

/-- The gather at `(r, e)`: row `r` of the table at the column the start index of `e` names, read signed and
    clamped into `[0, 499999]`. -/
theorem gather_apply {α : Type} (T : S2x500000.Idx → α) (idx : IVec S16000000x1 32) (r : Fin 2) (e : Fin 16000000) :
    Host.gather gd T idx (ix2 r e)
      = T (ix2 r ⟨min (idx (ix2 e (0 : Fin 1))).toInt.toNat 499999, by omega⟩) := by
  unfold Host.gather
  congr 1
  funext a
  refine Fin.ext ?_
  match a with
  | ⟨0, h0⟩ =>
    show (gd).start (ix2 r e) idx ⟨0, h0⟩ + (gd).batchCoord (ix2 r e) ⟨0, h0⟩ + (gd).offCoord (ix2 r e) ⟨0, h0⟩ = r.val
    rw [gd_start0, gd_batch, gd_off0]; omega
  | ⟨1, h1⟩ =>
    show (gd).start (ix2 r e) idx ⟨1, h1⟩ + (gd).batchCoord (ix2 r e) ⟨1, h1⟩ + (gd).offCoord (ix2 r e) ⟨1, h1⟩
      = min (idx (ix2 e (0 : Fin 1))).toInt.toNat 499999
    rw [gd_start1, gd_batch, gd_off1]; omega

end Gather

/-! ## The take read at an index -/

/-- When every word reads in `[0, 500000)`, the take at `(r, e)` is row `r` of the table at the node the word of `e` names. -/
theorem takeTerm_apply (T : FVec Ideal S2x500000 .f32) (w : IVec S16000000 32)
    (hw : ∀ i, 0 ≤ (w i).toInt ∧ (w i).toInt < 500000) (r : Fin 2) (e : Fin 16000000) :
    takeTerm T w (ix2 r e) = T (ix2 r (node (w (ix1 e)))) := by
  have hok : broadcastInDim S2x16000000 ![1] bcast_S16000000_S2x16000000_1 (okW w) (ix2 r e) = 1#1 := okW_eq_one w hw _
  unfold takeTerm
  rw [select_apply, hok, select_one, gather_apply]
  refine congrArg (fun n : Fin 500000 => T (ix2 r n)) ?_
  have h1 := toInt_eq_toNat (hw (ix1 e)).1
  have h2 := (hw (ix1 e)).2
  have hlt : (w (ix1 e)).toNat < 500000 := by omega
  have hc : colW w (ix2 e (0 : Fin 1)) = w (ix1 e) := by rw [colW_apply, wrapW_of_nonneg w fun i => (hw i).1]
  unfold node
  rw [dif_pos hlt]
  refine Fin.ext ?_
  show min (colW w (ix2 e (0 : Fin 1))).toInt.toNat 499999 = (w (ix1 e)).toNat
  rw [hc]; omega

/-- Every element of row 0 of the edge list is an element of the edge list. -/
theorem srcWords_mem (ei : IVec S2x16000000 32) (i : S16000000.Idx) : ∃ k, srcWords ei i = ei k := ⟨_, rfl⟩
/-- Every element of row 1 of the edge list is an element of the edge list. -/
theorem dstWords_mem (ei : IVec S2x16000000 32) (i : S16000000.Idx) : ∃ k, dstWords ei i = ei k := ⟨_, rfl⟩

/-- Under the index-range hypothesis the take of the source words is the specification's source endpoints. -/
theorem take_srcWords (pos : FVec Ideal S500000x2 .f32) (ei : IVec S2x16000000 32) (hr : InRange ei) :
    takeTerm (posT pos) (srcWords ei) = endpoint pos ei 0 := by
  funext i
  obtain ⟨r, e, rfl⟩ : ∃ r e, i = ix2 r e := ⟨i 0, i 1, eq_ix2 i⟩
  rw [takeTerm_apply _ _ (fun i => by obtain ⟨k, hk⟩ := srcWords_mem ei i; rw [hk]; exact hr k), posT_apply, srcWords_apply]
  rfl
/-- Under the index-range hypothesis the take of the target words is the specification's target endpoints. -/
theorem take_dstWords (pos : FVec Ideal S500000x2 .f32) (ei : IVec S2x16000000 32) (hr : InRange ei) :
    takeTerm (posT pos) (dstWords ei) = endpoint pos ei 1 := by
  funext i
  obtain ⟨r, e, rfl⟩ : ∃ r e, i = ix2 r e := ⟨i 0, i 1, eq_ix2 i⟩
  rw [takeTerm_apply _ _ (fun i => by obtain ⟨k, hk⟩ := dstWords_mem ei i; rw [hk]; exact hr k), posT_apply, dstWords_apply]
  rfl

/-! ## The arrays the region finds -/

section AnyInstance
variable {F : FTy → Type} [FloatOps F]

/-- Contents carried to a buffer's type and back are themselves. -/
theorem ofBuf_toBuf {T : BufTy} (x : TRef sig T) (v : T.Contents (Elt F)) : x.ofBuf (x.toBuf v) = v := by
  obtain ⟨r, h, h1, h2⟩ := x
  subst h
  rfl

/-- The fold over two stretches of operations is the fold over the second from the fold over the first. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- The first stretch (the slices, reshapes and the transpose of @main) from any contents: the source words. -/
theorem W_v1 (B : Valuation τ sig (Elt F)) :
    (TRef.of main_v1 : TRef sig ⟨S16000000, .i32⟩).ofBuf (after hostOps0 B (Proc.devRef .tc main_v1))
      = srcWords (B (Proc.devRef .tc main_arg1)) := by
  simp only [hostOps0]
  after_results_simp
  rfl
/-- The target words. -/
theorem W_v3 (B : Valuation τ sig (Elt F)) :
    (TRef.of main_v3 : TRef sig ⟨S16000000, .i32⟩).ofBuf (after hostOps0 B (Proc.devRef .tc main_v3))
      = dstWords (B (Proc.devRef .tc main_arg1)) := by
  simp only [hostOps0]
  after_results_simp
  rfl
/-- The transposed table. -/
theorem W_v4 (B : Valuation τ sig (Elt F)) :
    (TRef.of main_v4 : TRef sig ⟨S2x500000, .f32⟩).ofBuf (after hostOps0 B (Proc.devRef .tc main_v4))
      = posT (B (Proc.devRef .tc main_arg0)) := by
  simp only [hostOps0]
  after_results_simp
  rfl

set_option maxHeartbeats 1000000 in
/-- The two takes from any contents `W`: the first's result is the take of `W`'s transposed table at `W`'s source words. -/
theorem take0_of (W : Valuation τ sig (Elt F)) :
    (TRef.of main_v5 : TRef sig ⟨S2x16000000, .f32⟩).ofBuf (after hostOps0_2 (after hostOps0_1 W) (Proc.devRef .tc main_v5))
      = takeTerm ((TRef.of main_v4 : TRef sig ⟨S2x500000, .f32⟩).ofBuf (W (Proc.devRef .tc main_v4)))
          ((TRef.of main_v1 : TRef sig ⟨S16000000, .i32⟩).ofBuf (W (Proc.devRef .tc main_v1))) := by
  simp only [hostOps0_1, hostOps0_2]
  after_results_simp
  simp only [ofBuf_toBuf]
  rfl

set_option maxHeartbeats 1000000 in
/-- The second's result is the take of `W`'s transposed table at `W`'s target words. -/
theorem take1_of (W : Valuation τ sig (Elt F)) :
    (TRef.of main_v6 : TRef sig ⟨S2x16000000, .f32⟩).ofBuf (after hostOps0_2 (after hostOps0_1 W) (Proc.devRef .tc main_v6))
      = takeTerm ((TRef.of main_v4 : TRef sig ⟨S2x500000, .f32⟩).ofBuf (W (Proc.devRef .tc main_v4)))
          ((TRef.of main_v3 : TRef sig ⟨S16000000, .i32⟩).ofBuf (W (Proc.devRef .tc main_v3))) := by
  simp only [hostOps0_1, hostOps0_2]
  after_results_simp
  simp only [ofBuf_toBuf]
  rfl

variable (m : (ℓ : Loc nD τ sig) → Buf (Elt F) ℓ)

/-- The region-entry contents are the three stretches folded in turn. -/
theorem V0_eq (c : Dev nD) :
    V0 m c = after hostOps0_2 (after hostOps0_1 (after hostOps0 (fun b => m (c, b)))) := by
  dsimp only [V0]
  rw [List.flatten_cons, List.flatten_cons, List.flatten_cons, List.flatten_nil, List.append_nil, after_append, after_append]

/-- The gathered sources when the region is entered: the take of the transposed table at the source words. -/
theorem V_v5 (c : Dev nD) :
    (V m c main_v5 : FVec F S2x16000000 .f32)
      = takeTerm (posT (m ((c : Thread nD τ).loc main_arg0))) (srcWords (m ((c : Thread nD τ).loc main_arg1))) := by
  have h := take0_of (after hostOps0 (fun b => m (c, b)))
  rw [W_v4, W_v1] at h
  refine Eq.trans ?_ h
  dsimp only [V]
  rw [V0_eq]
  rfl

/-- The gathered targets when the region is entered: the take of the transposed table at the target words. -/
theorem V_v6 (c : Dev nD) :
    (V m c main_v6 : FVec F S2x16000000 .f32)
      = takeTerm (posT (m ((c : Thread nD τ).loc main_arg0))) (dstWords (m ((c : Thread nD τ).loc main_arg1))) := by
  have h := take1_of (after hostOps0 (fun b => m (c, b)))
  rw [W_v4, W_v3] at h
  refine Eq.trans ?_ h
  dsimp only [V]
  rw [V0_eq]
  rfl

/-- The target words when the region is entered: row 1 of the edge list. -/
theorem V_v3 (c : Dev nD) :
    (V m c main_v3 : IVec S16000000 32) = dstWords (m ((c : Thread nD τ).loc main_arg1)) := by
  dsimp only [V, V0]
  simp only [hostOps0, hostOps0_1, hostOps0_2, List.flatten_cons, List.flatten_nil, List.append_nil, List.cons_append,
    List.nil_append]
  after_results_simp
  rfl

end AnyInstance

variable (m : (ℓ : Loc nD τ sig) → Buf (Elt Ideal) ℓ)

/-- Under the index-range hypothesis the gathered source rows are the specification's: coordinate r of the node edge e's source word names. -/
theorem take_src (c : Dev nD) (hr : InRange (m ((c : Thread nD τ).loc main_arg1))) :
    (V m c main_v5 : S2x16000000.Idx → EReal) = endpoint (m ((c : Thread nD τ).loc main_arg0)) (m ((c : Thread nD τ).loc main_arg1)) 0 :=
  (V_v5 m c).trans (take_srcWords _ _ hr)
/-- and the gathered target rows. -/
theorem take_dst (c : Dev nD) (hr : InRange (m ((c : Thread nD τ).loc main_arg1))) :
    (V m c main_v6 : S2x16000000.Idx → EReal) = endpoint (m ((c : Thread nD τ).loc main_arg0)) (m ((c : Thread nD τ).loc main_arg1)) 1 :=
  (V_v6 m c).trans (take_dstWords _ _ hr)
/-- The target words as the later host operations read them: row 1 of the edge list. -/
theorem dst_words (c : Dev nD) (e : Fin 16000000) :
    (V m c main_v3 : IVec S16000000 32) (ix1 e) = (m ((c : Thread nD τ).loc main_arg1) : IVec S2x16000000 32) (ix2 (1 : Fin 2) e) := by
  rw [V_v3]
  exact dstWords_apply _ e

end Cert.KernelIdeal.Take

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.KernelTail.lean ====
/-
  The host operations after the kernel's region, as one function and read at an index.

  After the region @main scatter-adds the message array [5, E] along its edge axis into zeros [5, N] at the target words
  (a negative word first moved up by N), transposes the sums to [N, 5], divides components 0–3 by component 4 clamped
  below by one, and appends the positions. `tailT` is that composition over plain arrays; `tail_term` says the result
  buffer after the run is `tailT` of the region's message array, the target words and the positions; `tailT_apply` reads
  it at (n, k): the per-node sum of component k over the clamped per-node sum of component 4, or a position coordinate.
  The per-node sums are read by the column form of the accumulating-scatter law; where no target word is negative the
  scatter's index word is the target word itself.
-/
import proofs.«423772_j49237505081482_3_alg».proof.Proof.Gen.KernelIdeal.Frame
import proofs.«423772_j49237505081482_3_alg».proof.Proof.Spec
import proofs.«423772_j49237505081482_3_alg».proof.Proof.LibScatterSum
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.MeanMsg
open scoped BigOperators

variable (m : (ℓ : Loc nD τ sig) → Buf (Elt Ideal) ℓ)

/-- The target word as the scatter reads it: a negative word moved up by the number of nodes. -/
def wrapWords (dstw : IVec S16000000 32) : IVec S16000000x1 32 :=
  broadcastInDim S16000000x1 ![0] bcast_S16000000_S16000000x1_0
    (select (cmpi .slt dstw (broadcastInDim S16000000 ![] bcast_S_S16000000 (constantI S_ 32 0#32)))
      (addi dstw (broadcastInDim S16000000 ![] bcast_S_S16000000 (constantI S_ 32 500000#32))) dstw)

/-- The sums per node, [5, N]: the messages scatter-added along the edge axis at the (wrapped) target words, into zeros. -/
def nodeSums (msg : FVec Ideal S5x16000000 .f32) (dstw : IVec S16000000 32) : FVec Ideal S5x500000 .f32 :=
  Host.scatterAdd scatter_S5x500000_S16000000x1_S5x16000000_0_1_1_1
    (broadcastInDim S5x500000 ![] bcast_S_S5x500000 (constant (F := Ideal) S_ .f32 0x00000000#32)) (wrapWords dstw) msg

/-- The first four components: the per-node sums transposed to [N, 5], components 0–3 over `max (component 4) 1`. -/
def tailQ (msg : FVec Ideal S5x16000000 .f32) (dstw : IVec S16000000 32) : FVec Ideal S500000x4 .f32 :=
  Host.divf
    (extractStridedSlice S500000x4 ![0, 0] (transpose S500000x5 [1, 0] (nodeSums msg dstw) transposes_S5x500000_S500000x5_1_0) slices_S500000x5_S500000x4_0_0)
    (broadcastInDim S500000x4 ![0, 1] bcast_S500000x1_S500000x4_0_1
      (maximumf (extractStridedSlice S500000x1 ![0, 4] (transpose S500000x5 [1, 0] (nodeSums msg dstw) transposes_S5x500000_S500000x5_1_0) slices_S500000x5_S500000x1_0_4)
        (broadcastInDim S500000x1 ![] bcast_S_S500000x1 (constant (F := Ideal) S_ .f32 0x3F800000#32))))

/-- Four components followed by the two position coordinates, per node. -/
def tailCat (q : FVec Ideal S500000x4 .f32) (pos : FVec Ideal S500000x2 .f32) : FVec Ideal S500000x6 .f32 :=
  concatenate S500000x6 1 [⟨S500000x4, q⟩, ⟨S500000x2, pos⟩] concatenates_S500000x4_S500000x2_S500000x6_d1

/-- What the host operations after the region compute from the message array, the target words and the positions. -/
def tailT (msg : FVec Ideal S5x16000000 .f32) (dstw : IVec S16000000 32) (pos : FVec Ideal S500000x2 .f32) : FVec Ideal S500000x6 .f32 :=
  tailCat (tailQ msg dstw) pos

set_option maxHeartbeats 8000000 in
/-- Over ANY contents `W` of the buffers, the host operations after the region leave in the result buffer that function of
    what `W` holds at the message array, the target words and the positions. -/
theorem tail_of (W : Valuation τ sig (Elt Ideal)) :
    StableHlo.after hostOps1 W (Proc.devRef .tc main_v23)
      = tailT (W (Proc.devRef .tc main_v7)) (W (Proc.devRef .tc main_v3)) (W (Proc.devRef .tc main_arg0)) := by
  simp only [hostOps1]
  after_results
  rfl

/-- The result buffer after the run is that function of the region's message array, the target words and the positions. -/
theorem tail_term (c : Dev nD) :
    Pipeline.afterTail₀ cfgs (dats m) 0 (V0 m) [hostOps1] c main_v23
      = tailT ((dats m 0 c).arrAt 2 cfg0.N) (V m c main_v3) (V m c main_arg0) := by
  have hfl : ([hostOps1] : List (List (HloOp τ sig (Elt Ideal)))).flatten = hostOps1 := by
    simp only [List.flatten_cons, List.flatten_nil, List.append_nil]
  unfold Pipeline.afterTail₀
  rw [hfl, tail_of]
  rw [Pipeline.withArrays_of_ne _ c (V0 m c) _ main_v3 (by exact (by decide : ∀ w, Pipeline.arrRef spec0 w ≠ main_v3)),
    Pipeline.withArrays_of_ne _ c (V0 m c) _ main_arg0 (by exact (by decide : ∀ w, Pipeline.arrRef spec0 w ≠ main_arg0)),
    show Pipeline.withArrays spec0 c (V0 m c) (fun w => (dats m 0 c).arrAt w cfg0.N) (Proc.devRef .tc main_v7)
        = (dats m 0 c).arrAt 2 cfg0.N from Pipeline.withArrays_arr spec0 launch0.win.arr_inj c _ _ 2]

/-! ## The host operations after the region, read at an index -/

/-- A vector of words laid out as an [E, 1] column reads, at (e, 0), the vector at e. -/
theorem words_col_apply (v : IVec S16000000 32) (e : Fin 16000000) (z : Fin 1) :
    broadcastInDim S16000000x1 ![0] bcast_S16000000_S16000000x1_0 v (ix2 e z) = v (ix1 e) :=
  broadcastInDim_apply _ _ v (ix2 e z) (ix1 e) fun a => by
    match a with
    | ⟨0, _⟩ => show e.val = if (16000000 : Nat) = 1 then 0 else e.val; rw [if_neg (by omega)]

/-- A word that is not negative is not below zero in the signed order. -/
theorem slt_zero_of_nonneg (w : BitVec 32) (h : 0 ≤ w.toInt) : IntOp.cmpi .slt w 0#32 = 0#1 := by
  unfold IntOp.cmpi
  have : w.slt 0#32 = false := by
    simp only [BitVec.slt, BitVec.toInt_zero, decide_eq_false_iff_not, not_lt]; exact h
  rw [this]; rfl

/-- So the scatter's index word of edge e is its target word, when that is not negative. -/
theorem wrapWords_apply (dstw : IVec S16000000 32) (e : Fin 16000000) (h : 0 ≤ (dstw (ix1 e)).toInt) :
    wrapWords dstw (ix2 e (0 : Fin 1)) = dstw (ix1 e) := by
  unfold wrapWords
  refine (words_col_apply _ e 0).trans ?_
  refine (select_apply _ _ _ _).trans ?_
  have hc : cmpi .slt dstw (broadcastInDim S16000000 ![] bcast_S_S16000000 (constantI S_ 32 0#32)) (ix1 e) = 0#1 :=
    slt_zero_of_nonneg _ h
  rw [hc]; exact select_zero _ _

/-- Over the extended reals the host's accumulating scatter is the exact scatter-sum, at every index. -/
theorem scatterAdd_ideal {s si u : Shape} {w : Nat} {φ : FTy} (d : ScatterDims s si u) (x : FVec Ideal s φ) (idx : IVec si w)
    (upd : FVec Ideal u φ) (i : s.Idx) : Host.scatterAdd (F := Ideal) d x idx upd i = Ideal.hostScatterAdd d x idx upd i := rfl

/-- The zero array the sums start from, read at an index. -/
theorem zeros_apply (k : Fin 5) (n : Fin 500000) :
    (broadcastInDim S5x500000 ![] bcast_S_S5x500000 (constant (F := Ideal) S_ .f32 0x00000000#32) : FVec Ideal S5x500000 .f32) (ix2 k n) = zero := rfl

/-- The edges whose scatter index word reads n are the edges whose target word reads n, when no target word is negative. -/
theorem filter_wrap (dstw : IVec S16000000 32) (hr : ∀ e : Fin 16000000, 0 ≤ (dstw (ix1 e)).toInt) (n : Fin 500000) :
    (Finset.univ.filter (fun e : Fin 16000000 => (wrapWords dstw (ix2 e (0 : Fin 1))).toInt = (n.val : ℤ)))
      = Finset.univ.filter (fun e : Fin 16000000 => (dstw (ix1 e)).toInt = (n.val : ℤ)) :=
  Finset.filter_congr (fun e _ => by rw [wrapWords_apply dstw e (hr e)])

/-- The per-node sums at (k, n): zero plus the sum, over the edges whose target word reads n, of component k of the message. -/
theorem nodeSums_apply (msg : FVec Ideal S5x16000000 .f32) (dstw : IVec S16000000 32)
    (hr : ∀ e : Fin 16000000, 0 ≤ (dstw (ix1 e)).toInt) (k : Fin 5) (n : Fin 500000) :
    nodeSums msg dstw (ix2 k n)
      = zero + ∑ e ∈ Finset.univ.filter (fun e : Fin 16000000 => (dstw (ix1 e)).toInt = (n.val : ℤ)), msg (ix2 k e) := by
  unfold nodeSums
  rw [scatterAdd_ideal]
  rw [show scatter_S5x500000_S16000000x1_S5x16000000_0_1_1_1
      = (⟨[0], [1], [1], 1, Facts₀.scatter_S5x500000_S16000000x1_S5x16000000_0_1_1_1_wf⟩ :
          ScatterDims S5x500000 S16000000x1 S5x16000000) from rfl]
  rw [Cert.LibScatterSum.scatterAdd_cols (C := 5) (N := 500000) (E := 16000000)]
  rw [zeros_apply, filter_wrap dstw hr n]

/-- The host's quotient, read at an index. -/
theorem hostDivf_apply {s : Shape} {φ : FTy} (a b : FVec Ideal s φ) (i : s.Idx) : Host.divf a b i = Ideal.div (a i) (b i) := rfl

/-- The transposed sums [N, 5] read at (n, k) the sums at (k, n). -/
theorem sumsT_apply (X : FVec Ideal S5x500000 .f32) (n : Fin 500000) (k : Fin 5) :
    transpose S500000x5 [1, 0] X transposes_S5x500000_S500000x5_1_0 (ix2 n k) = X (ix2 k n) :=
  transpose_ix2_apply X _ n k

/-- The count column broadcast along the four message components reads, at (n, k), the column at (n, 0). -/
theorem den_bcast_apply (d : FVec Ideal S500000x1 .f32) (n : Fin 500000) (k : Fin 4) :
    broadcastInDim S500000x4 ![0, 1] bcast_S500000x1_S500000x4_0_1 d (ix2 n k) = d (ix2 n (0 : Fin 1)) :=
  broadcastInDim_apply _ _ d (ix2 n k) (ix2 n (0 : Fin 1)) fun a => by
    match a with
    | ⟨0, _⟩ => show n.val = if (500000 : Nat) = 1 then 0 else n.val; rw [if_neg (by omega)]
    | ⟨1, _⟩ => show (0 : Nat) = if (1 : Nat) = 1 then 0 else k.val; rw [if_pos rfl]

/-- Component k < 4 of the joined array is component k of the first piece. -/
theorem tailCat_lo (q : FVec Ideal S500000x4 .f32) (pos : FVec Ideal S500000x2 .f32) (n : Fin 500000) (k : Fin 6) (h : k.val < 4) :
    tailCat q pos (ix2 n k) = q (ix2 n (⟨k.val, h⟩ : Fin 4)) := by
  unfold tailCat
  refine concatenate_apply_piece (t := S500000x6) (1 : Fin S500000x6.rank) [⟨S500000x4, q⟩, ⟨S500000x2, pos⟩] concatenates_S500000x4_S500000x2_S500000x6_d1 (ix2 n k) 0
    (by show 0 < 2; omega) S500000x4 q rfl rfl 0 rfl (ix2 n (⟨k.val, h⟩ : Fin 4)) (fun b hb => ?_) ?_
  · match b with
    | ⟨0, _⟩ => rfl
    | ⟨1, _⟩ => exact absurd rfl hb
  · show 0 + k.val = k.val; omega

/-- Components 4 and 5 are the second piece's 0 and 1. -/
theorem tailCat_hi (q : FVec Ideal S500000x4 .f32) (pos : FVec Ideal S500000x2 .f32) (n : Fin 500000) (k : Fin 6) (h : ¬k.val < 4) :
    tailCat q pos (ix2 n k) = pos (ix2 n (⟨k.val - 4, by have := k.isLt; omega⟩ : Fin 2)) := by
  have hk6 : k.val < 6 := k.isLt
  unfold tailCat
  refine concatenate_apply_piece (t := S500000x6) (1 : Fin S500000x6.rank) [⟨S500000x4, q⟩, ⟨S500000x2, pos⟩] concatenates_S500000x4_S500000x2_S500000x6_d1 (ix2 n k) 1
    (by show 1 < 2; omega) S500000x2 pos rfl rfl 4 rfl (ix2 n (⟨k.val - 4, by omega⟩ : Fin 2)) (fun b hb => ?_) ?_
  · match b with
    | ⟨0, _⟩ => rfl
    | ⟨1, _⟩ => exact absurd rfl hb
  · show 4 + (k.val - 4) = k.val; omega

/-- The quotient at (n, k): the per-node sum of component k over `max (the per-node sum of component 4) 1`. -/
theorem tailQ_apply (msg : FVec Ideal S5x16000000 .f32) (dstw : IVec S16000000 32) (n : Fin 500000) (k : Fin 4) :
    tailQ msg dstw (ix2 n k)
      = Ideal.div (nodeSums msg dstw (ix2 (⟨k.val, by omega⟩ : Fin 5) n)) (max (nodeSums msg dstw (ix2 (4 : Fin 5) n)) one) := by
  unfold tailQ
  refine (hostDivf_apply _ _ _).trans ?_
  refine congrArg₂ Ideal.div ?_ ?_
  · refine (slice2_axis1_apply 0 _ slices_S500000x5_S500000x4_0_0 n k (⟨k.val, by omega⟩ : Fin 5) (by show k.val = 0 + k.val; omega)).trans ?_
    exact sumsT_apply _ n _
  · refine (den_bcast_apply _ n k).trans ?_
    refine (maximumf_apply _ _ _).trans ?_
    refine congrArg₂ max ?_ rfl
    refine (slice2_axis1_apply 4 _ slices_S500000x5_S500000x1_0_4 n (0 : Fin 1) (4 : Fin 5) (by show 4 = 4 + 0; rfl)).trans ?_
    exact sumsT_apply _ n _

/-- THE RESULT at (n, k): for k < 4 the sum of component k over `max (the sum of component 4) 1`; for k = 4, 5 the position. -/
theorem tailT_apply (msg : FVec Ideal S5x16000000 .f32) (dstw : IVec S16000000 32) (pos : FVec Ideal S500000x2 .f32)
    (n : Fin 500000) (k : Fin 6) :
    tailT msg dstw pos (ix2 n k)
      = if h : k.val < 4 then
          Ideal.div (nodeSums msg dstw (ix2 (⟨k.val, by omega⟩ : Fin 5) n)) (max (nodeSums msg dstw (ix2 (4 : Fin 5) n)) one)
        else pos (ix2 n (⟨k.val - 4, by have := k.isLt; omega⟩ : Fin 2)) := by
  unfold tailT
  by_cases h : k.val < 4
  · rw [dif_pos h, tailCat_lo _ _ n k h]
    exact tailQ_apply msg dstw n ⟨k.val, h⟩
  · rw [dif_neg h]
    exact tailCat_hi _ _ n k h

end Cert.KernelIdeal.Tail

end
-- ==== Proof.KernelValue.lean ====
/-
  The kernel's result is the specification's function of its two arguments, under the index-range hypothesis.

  The buffer @main returns is what the host operations after the region compute from the region's message array, the target
  words and the positions. The message array is the messages of the gathered endpoint rows; the gathered rows are the
  positions of the nodes the index words name; the scatter's index word of an edge is its target word, since no word is
  negative; so the per-node sums are the specification's sums over the edges into each node, component by component, the
  fifth component counting them.
-/
import proofs.«423772_j49237505081482_3_alg».proof.Proof.KernelRegion
import proofs.«423772_j49237505081482_3_alg».proof.Proof.KernelTake
import proofs.«423772_j49237505081482_3_alg».proof.Proof.KernelTail

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.MeanMsg
open scoped BigOperators

variable (m : (ℓ : Loc nD τ sig) → Buf (Elt Ideal) ℓ) (ρ : Dev nD → PrngReg)

/-- What @main's result buffer holds after the run: the specification's function of the two arguments. -/
theorem kernel_result (c : Dev nD) (hr : InRange (m ((c : Thread nD τ).loc main_arg1))) :
    Pipeline.afterTail₀ cfgs (dats m) 0 (V0 m) [hostOps1] c main_v23
      = G (m ((c : Thread nD τ).loc main_arg0)) (m ((c : Thread nD τ).loc main_arg1)) := by
  have hnn : ∀ e : Fin 16000000, 0 ≤ ((V m c main_v3 : IVec S16000000 32) (ix1 e)).toInt := fun e => by
    rw [Take.dst_words]; exact (hr _).1
  rw [Tail.tail_term, Region.region_out, Take.take_src m c hr, Take.take_dst m c hr, V_main_arg0]
  funext i
  obtain ⟨n, k, rfl⟩ : ∃ (n : Fin 500000) (k : Fin 6), i = ix2 n k := ⟨i 0, i 1, eq_ix2 i⟩
  rw [Tail.tailT_apply]
  have hfil : ∀ n : Fin 500000,
      (Finset.univ.filter (fun e : Fin 16000000 => ((V m c main_v3 : IVec S16000000 32) (ix1 e)).toInt = (n.val : ℤ)))
        = Finset.univ.filter (fun e : Fin 16000000 =>
            ((m ((c : Thread nD τ).loc main_arg1) : IVec S2x16000000 32) (ix2 (1 : Fin 2) e)).toInt = (n.val : ℤ)) :=
    fun n => Finset.filter_congr fun e _ => by rw [Take.dst_words]
  by_cases h : k.val < 4
  · have hG : G (m ((c : Thread nD τ).loc main_arg0)) (m ((c : Thread nD τ).loc main_arg1)) (ix2 n k)
        = Ideal.div (zero + segSum (m ((c : Thread nD τ).loc main_arg1)) n (fun e =>
              msgAt (endpoint (m ((c : Thread nD τ).loc main_arg0)) (m ((c : Thread nD τ).loc main_arg1)) 0)
                (endpoint (m ((c : Thread nD τ).loc main_arg0)) (m ((c : Thread nD τ).loc main_arg1)) 1) e ⟨k.val, by omega⟩))
            (max (zero + segSum (m ((c : Thread nD τ).loc main_arg1)) n (fun _ => one)) one) := dif_pos h
    rw [hG, dif_pos h, Tail.nodeSums_apply _ _ hnn, Tail.nodeSums_apply _ _ hnn, hfil n]
    unfold segSum
    exact congrArg₂ Ideal.div (congrArg (fun z => zero + z) (Finset.sum_congr rfl fun e _ => rfl))
      (congrArg (fun z => max (zero + z) one) (Finset.sum_congr rfl fun e _ => rfl))
  · have hk6 : k.val < 6 := k.isLt
    have hG : G (m ((c : Thread nD τ).loc main_arg0)) (m ((c : Thread nD τ).loc main_arg1)) (ix2 n k)
        = m ((c : Thread nD τ).loc main_arg0) (ix2 n (⟨k.val - 4, by omega⟩ : Fin 2)) := dif_neg h
    rw [hG, dif_neg h]

/-- The kernel's run, read: the result buffer at the specification's function, the arguments unchanged. -/
theorem run (hr : ∀ c : Dev nD, InRange (m ((c : Thread nD τ).loc main_arg1))) :
    θ_run defs (onTc (τ := τ) (main (F := Ideal))) ⟨m, fun _ => 0, ρ⟩ fun r => ∀ c : Dev nD,
      r.2.mem ((c : Thread nD τ).loc main_v23) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v23 (Pipeline.mem_restRefs_of main_v23 (by decide) (by decide))).trans (kernel_result m c (hr c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefSide.lean ====
/-
  THE REFERENCE'S RESULT IS THE SPECIFICATION'S FUNCTION. The reference program is 51 host operations over the node
  positions pos : [500000, 2] and the edge list ei : [2, 16000000]. Read at an index, stage by stage, under the hypothesis
  that every index word of the edge list, read signed, lies in [0, 500000):

  * each row of the edge list is wrapped ("w + 500000 if w < 0, else w"); a nonnegative word is left alone;
  * the positions are gathered at the wrapped source and target words; the gather reads its start word signed and
    clamps it into [0, 499999], which leaves a word of the range alone: row e of the gathered array is the row of pos
    the word names;
  * the difference d of the two gathered rows, the sum of the squares of its two coordinates from the initial value
    zero, its square root plus ε, and the quotient d / (‖d‖ + ε) are elementwise; concatenated they are the message rows
    [E, 4];
  * the message rows are scatter-added at the raw target words into zeros [500000, 4], and ones into zeros [500000]:
    at node n, the initial zero plus the sum over the edges whose target word reads n;
  * the sums are divided by max (count) 1 and the positions are appended.

  This is the specification's function G, index by index.
-/
import proofs.«423772_j49237505081482_3_alg».proof.Proof.RefRead
import proofs.«423772_j49237505081482_3_alg».proof.Proof.Spec
import proofs.«423772_j49237505081482_3_alg».proof.Proof.LibScatterSum
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.ReadP Idealize.ShloMosaic Idealize.ShloMosaic.ValueIdx Idealize.SL.Sem
open Cert.MeanMsg (node InRange endpoint dcoord lenEps msgAt segSum G)
open scoped BigOperators

/-! ## Words -/

/-- A nonnegative word is left alone by the wrap "w + 500000 if w < 0, else w". -/
theorem wrap_of_nonneg (w : BitVec 32) (h : 0 ≤ w.toInt) :
    Scalar.select (IntOp.cmpi .slt w 0#32) (IntOp.addi w 500000#32) w = w := by
  have hn : ¬ IntOp.cmpi .slt w 0#32 = 1#1 := by
    rw [IntOp.cmpi_slt, show (0#32 : BitVec 32).toInt = 0 from by decide]; omega
  unfold Scalar.select
  exact if_neg hn

/-- A word that reads signed in [0, 500000) names the node of its value, and the gather's clamp into [0, 499999]
    leaves it there. -/
theorem node_val (w : BitVec 32) (h0 : 0 ≤ w.toInt) (h1 : w.toInt < 500000) :
    (node w).val = min w.toInt.toNat (500000 - 1) := by
  have hc := BitVec.toInt_eq_toNat_cond w
  have hlt := w.isLt
  have e1 : w.toInt.toNat = w.toNat := by split at hc <;> omega
  have e2 : w.toNat < 500000 := by split at hc <;> omega
  unfold node
  rw [dif_pos e2, e1]
  show w.toNat = min w.toNat (500000 - 1)
  omega

/-! ## The gather of rows -/

/-- A gather of whole rows of an [N, K] table at one start word per result row ([E, 1] start indices, result
    [E, K]), read at (e, r): the table at (n, r), n the start word of row e read signed and clamped into [0, N - 1]. -/
theorem gather_rows {α : Type} {N K E w : Nat}
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (r : Fin K) (n : Fin N)
    (hn : n.val = min (idx (ix2 e (0 : Fin 1))).toInt.toNat (N - 1)) :
    Host.gather (⟨[1], [0], [], [], [0], 1, ![1, K], wf⟩ :
        GatherDims (⟨2, ![N, K]⟩ : Shape) (⟨2, ![E, 1]⟩ : Shape) (⟨2, ![E, K]⟩ : Shape)) x idx (ix2 e r)
      = x (ix2 n r) := by
  unfold Host.gather
  congr 1
  funext a
  refine Fin.ext ?_
  match a with
  | ⟨0, _⟩ =>
    show GatherDims.start _ (ix2 e r) idx 0 + GatherDims.batchCoord _ (ix2 e r) 0 + GatherDims.offCoord _ (ix2 e r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, K], wf⟩ :
        GatherDims (⟨2, ![N, K]⟩ : Shape) (⟨2, ![E, 1]⟩ : Shape) (⟨2, ![E, K]⟩ : Shape)) (ix2 e r)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    exact hn.symm
  | ⟨1, _⟩ =>
    show GatherDims.start _ (ix2 e r) idx 1 + GatherDims.batchCoord _ (ix2 e r) 1 + GatherDims.offCoord _ (ix2 e r) 1 = _
    rw [GatherDims.batchCoord_eq_zero _ _ _ List.not_mem_nil]
    have hst : GatherDims.start (⟨[1], [0], [], [], [0], 1, ![1, K], wf⟩ :
        GatherDims (⟨2, ![N, K]⟩ : Shape) (⟨2, ![E, 1]⟩ : Shape) (⟨2, ![E, K]⟩ : Shape)) (ix2 e r) idx 1 = 0 := by
      unfold GatherDims.start
      rw [dif_neg (show ¬ (1 : Fin 2) ∈ [(0 : Fin 2)] from by decide)]
    rw [hst]
    simp only [Nat.add_zero, Nat.zero_add]
    unfold GatherDims.offCoord
    rw [dif_pos ((GatherDims.mem_sKept _ _).mpr ⟨show ¬ (1 : Fin 2) ∈ [(0 : Fin 2)] from by decide, List.not_mem_nil⟩)]
    rfl

/-! ## The reference's stages, read at an index -/

variable (pos : (⟨S500000x2, .f32⟩ : BufTy).Contents (Elt Ideal)) (ei : (⟨S2x16000000, .i32⟩ : BufTy).Contents (Elt Ideal))

/-- The flattened row 0 of the edge list at e is the source word of edge e. -/
theorem v1_at (e : Fin 16000000) : val_main_v1 (F := Ideal) ei (ix1 e) = ei (ix2 (0 : Fin 2) e) := by
  rw [val_main_v1_apply, val_main_v0_apply]
  exact congrArg ei (funext fun a => Fin.ext (by
    match a with
    | ⟨0, _⟩ => rfl
    | ⟨1, _⟩ => exact Nat.mod_eq_of_lt e.isLt))

/-- The flattened row 1 of the edge list at e is the target word of edge e. -/
theorem v3_at (e : Fin 16000000) : val_main_v3 (F := Ideal) ei (ix1 e) = ei (ix2 (1 : Fin 2) e) := by
  rw [val_main_v3_apply, val_main_v2_apply]
  exact congrArg ei (funext fun a => Fin.ext (by
    match a with
    | ⟨0, _⟩ => rfl
    | ⟨1, _⟩ => exact Nat.mod_eq_of_lt e.isLt))

/-- Under the range hypothesis the wrapped source word is the source word. -/
theorem v8_at (hr : InRange ei) (e : Fin 16000000) : val_main_v8 (F := Ideal) ei (ix1 e) = ei (ix2 (0 : Fin 2) e) := by
  rw [val_main_v8_apply, val_main_v5_apply, val_main_v7_apply, val_main_v4_apply, val_main_c_apply, val_main_v6_apply,
    val_main_c_0_apply, v1_at]
  exact wrap_of_nonneg _ (hr _).1

/-- Under the range hypothesis the wrapped target word is the target word. -/
theorem v15_at (hr : InRange ei) (e : Fin 16000000) : val_main_v15 (F := Ideal) ei (ix1 e) = ei (ix2 (1 : Fin 2) e) := by
  rw [val_main_v15_apply, val_main_v12_apply, val_main_v14_apply, val_main_v11_apply, val_main_c_1_apply, val_main_v13_apply,
    val_main_c_2_apply, v3_at]
  exact wrap_of_nonneg _ (hr _).1

theorem v9_at (hr : InRange ei) (e : Fin 16000000) : val_main_v9 (F := Ideal) ei (ix2 e (0 : Fin 1)) = ei (ix2 (0 : Fin 2) e) := by
  rw [val_main_v9_apply, show idx_main_v9 (ix2 e (0 : Fin 1)) = ix1 e from funext fun a => by match a with | ⟨0, _⟩ => rfl]
  exact v8_at ei hr e

theorem v16_at (hr : InRange ei) (e : Fin 16000000) : val_main_v16 (F := Ideal) ei (ix2 e (0 : Fin 1)) = ei (ix2 (1 : Fin 2) e) := by
  rw [val_main_v16_apply, show idx_main_v16 (ix2 e (0 : Fin 1)) = ix1 e from funext fun a => by match a with | ⟨0, _⟩ => rfl]
  exact v15_at ei hr e

/-- The scatters' index column at e is the target word of edge e, unwrapped. -/
theorem v26_at (e : Fin 16000000) : val_main_v26 (F := Ideal) ei (ix2 e (0 : Fin 1)) = ei (ix2 (1 : Fin 2) e) := by
  rw [val_main_v26_apply, show idx_main_v26 (ix2 e (0 : Fin 1)) = ix1 e from funext fun a => by match a with | ⟨0, _⟩ => rfl]
  exact v3_at ei e

theorem v30_at (e : Fin 16000000) : val_main_v30 (F := Ideal) ei (ix2 e (0 : Fin 1)) = ei (ix2 (1 : Fin 2) e) := by
  rw [val_main_v30_apply, show idx_main_v30 (ix2 e (0 : Fin 1)) = ix1 e from funext fun a => by match a with | ⟨0, _⟩ => rfl]
  exact v3_at ei e

/-- The gathered source rows: coordinate r of the node the source word of edge e names. -/
theorem v10_at (hr : InRange ei) (e : Fin 16000000) (r : Fin 2) :
    val_main_v10 (F := Ideal) pos ei (ix2 e r) = pos (ix2 (node (ei (ix2 (0 : Fin 2) e))) r) := by
  unfold val_main_v10
  refine gather_rows (N := 500000) (K := 2) (E := 16000000) Facts₀.gather_S500000x2_S16000000x1_S16000000x2_1_0_n_n_0_1_12_wf
    pos (val_main_v9 (F := Ideal) ei) e r (node (ei (ix2 (0 : Fin 2) e))) ?_
  rw [v9_at ei hr]
  exact node_val _ (hr _).1 (hr _).2

/-- The gathered target rows. -/
theorem v17_at (hr : InRange ei) (e : Fin 16000000) (r : Fin 2) :
    val_main_v17 (F := Ideal) pos ei (ix2 e r) = pos (ix2 (node (ei (ix2 (1 : Fin 2) e))) r) := by
  unfold val_main_v17
  refine gather_rows (N := 500000) (K := 2) (E := 16000000) Facts₀.gather_S500000x2_S16000000x1_S16000000x2_1_0_n_n_0_1_12_wf
    pos (val_main_v16 (F := Ideal) ei) e r (node (ei (ix2 (1 : Fin 2) e))) ?_
  rw [v16_at ei hr]
  exact node_val _ (hr _).1 (hr _).2

/-- The difference of the endpoints of edge e, coordinate r. -/
theorem v18_at (hr : InRange ei) (e : Fin 16000000) (r : Fin 2) :
    val_main_v18 (F := Ideal) pos ei (ix2 e r) = dcoord (endpoint pos ei 0) (endpoint pos ei 1) e r := by
  rw [val_main_v18_apply, v10_at pos ei hr, v17_at pos ei hr]
  rfl

/-- The sum of the squares of the difference's coordinates. -/
theorem normsq_at (hr : InRange ei) (e : Fin 16000000) :
    val_main_call0_v1 (F := Ideal) pos ei (ix1 e)
      = ∑ r : Fin 2, dcoord (endpoint pos ei 0) (endpoint pos ei 1) e r * dcoord (endpoint pos ei 0) (endpoint pos ei 1) e r := by
  rw [val_main_call0_v1_apply, val_main_call0_cst_apply, Ideal.ofBits_def, Ideal.ofBits_zero_f32, zero_add]
  refine Finset.sum_congr rfl fun k _ => ?_
  rw [val_main_call0_v0_apply,
    show idx_main_call0_v1 (ix1 e) k = ix2 e k from funext fun a => by match a with | ⟨0, _⟩ => rfl | ⟨1, _⟩ => rfl,
    v18_at pos ei hr]
  rfl

/-- The length of the difference, plus ε. -/
theorem v21_at (hr : InRange ei) (e : Fin 16000000) :
    val_main_v21 (F := Ideal) pos ei (ix2 e (0 : Fin 1)) = lenEps (endpoint pos ei 0) (endpoint pos ei 1) e := by
  rw [val_main_v21_apply, val_main_v19_apply, val_main_call0_v2_apply, val_main_v20_apply, val_main_cst_apply,
    show idx_main_call0_v2 (ix2 e (0 : Fin 1)) = ix1 e from funext fun a => by match a with | ⟨0, _⟩ => rfl,
    normsq_at pos ei hr]
  rfl

/-- The difference over its length plus ε. -/
theorem v23_at (hr : InRange ei) (e : Fin 16000000) (r : Fin 2) :
    val_main_v23 (F := Ideal) pos ei (ix2 e r)
      = Ideal.div (dcoord (endpoint pos ei 0) (endpoint pos ei 1) e r) (lenEps (endpoint pos ei 0) (endpoint pos ei 1) e) := by
  rw [val_main_v23_apply, val_main_v22_apply, v18_at pos ei hr,
    show idx_main_v22 (ix2 e r) = ix2 e (0 : Fin 1) from funext fun a => Fin.ext (by match a with | ⟨0, _⟩ => rfl | ⟨1, _⟩ => rfl),
    v21_at pos ei hr]
  rfl

/-- The message rows [E, 4]: the difference, then the difference over its length plus ε. -/
theorem v24_at (hr : InRange ei) (e : Fin 16000000) (k : Fin 4) :
    val_main_v24 (F := Ideal) pos ei (ix2 e k)
      = msgAt (endpoint pos ei 0) (endpoint pos ei 1) e ⟨k.val, by omega⟩ := by
  unfold val_main_v24
  match k with
  | ⟨0, _⟩ =>
    refine (concatenate_pair_apply_left (t := S16000000x4) (s₁ := S16000000x2) (s₂ := S16000000x2) (1 : Fin 2)
      (val_main_v18 (F := Ideal) pos ei) (val_main_v23 (F := Ideal) pos ei) Facts₀.concatenates_S16000000x2_S16000000x2_S16000000x4_d1
      (ix2 e (⟨0, by omega⟩ : Fin 4)) rfl (ix2 e (0 : Fin 2)) (fun b => by match b with | ⟨0, _⟩ => rfl | ⟨1, _⟩ => rfl)).trans ?_
    exact v18_at pos ei hr e 0
  | ⟨1, _⟩ =>
    refine (concatenate_pair_apply_left (t := S16000000x4) (s₁ := S16000000x2) (s₂ := S16000000x2) (1 : Fin 2)
      (val_main_v18 (F := Ideal) pos ei) (val_main_v23 (F := Ideal) pos ei) Facts₀.concatenates_S16000000x2_S16000000x2_S16000000x4_d1
      (ix2 e (⟨1, by omega⟩ : Fin 4)) rfl (ix2 e (1 : Fin 2)) (fun b => by match b with | ⟨0, _⟩ => rfl | ⟨1, _⟩ => rfl)).trans ?_
    exact v18_at pos ei hr e 1
  | ⟨2, _⟩ =>
    refine (concatenate_pair_apply_right (t := S16000000x4) (s₁ := S16000000x2) (s₂ := S16000000x2) (1 : Fin 2)
      (val_main_v18 (F := Ideal) pos ei) (val_main_v23 (F := Ideal) pos ei) Facts₀.concatenates_S16000000x2_S16000000x2_S16000000x4_d1
      (ix2 e (⟨2, by omega⟩ : Fin 4)) rfl rfl (ix2 e (0 : Fin 2))
      (fun b hb => by match b with | ⟨0, _⟩ => rfl | ⟨1, _⟩ => exact absurd rfl hb) rfl).trans ?_
    exact v23_at pos ei hr e 0
  | ⟨3, _⟩ =>
    refine (concatenate_pair_apply_right (t := S16000000x4) (s₁ := S16000000x2) (s₂ := S16000000x2) (1 : Fin 2)
      (val_main_v18 (F := Ideal) pos ei) (val_main_v23 (F := Ideal) pos ei) Facts₀.concatenates_S16000000x2_S16000000x2_S16000000x4_d1
      (ix2 e (⟨3, by omega⟩ : Fin 4)) rfl rfl (ix2 e (1 : Fin 2))
      (fun b hb => by match b with | ⟨0, _⟩ => rfl | ⟨1, _⟩ => exact absurd rfl hb) rfl).trans ?_
    exact v23_at pos ei hr e 1
  | ⟨n + 4, h⟩ => exact absurd h (by omega)

/-- The edges whose scatter index word is n are the edges whose target word is n. -/
theorem filter26 (n : Fin 500000) :
    Finset.univ.filter (fun e : Fin 16000000 => (val_main_v26 (F := Ideal) ei (ix2 e (0 : Fin 1))).toInt = (n.val : ℤ))
      = Finset.univ.filter (fun e : Fin 16000000 => (ei (ix2 (1 : Fin 2) e)).toInt = (n.val : ℤ)) :=
  Finset.filter_congr fun e _ => by rw [v26_at]

theorem filter30 (n : Fin 500000) :
    Finset.univ.filter (fun e : Fin 16000000 => (val_main_v30 (F := Ideal) ei (ix2 e (0 : Fin 1))).toInt = (n.val : ℤ))
      = Finset.univ.filter (fun e : Fin 16000000 => (ei (ix2 (1 : Fin 2) e)).toInt = (n.val : ℤ)) :=
  Finset.filter_congr fun e _ => by rw [v30_at]

/-- Over the extended reals the host's accumulating scatter is the exact scatter-sum, at every index. -/
theorem scatterAdd_ideal {s si u : Shape} {w : Nat} {φ : FTy} (d : ScatterDims s si u) (x : FVec Ideal s φ) (idx : IVec si w)
    (upd : FVec Ideal u φ) (i : s.Idx) : Host.scatterAdd (F := Ideal) d x idx upd i = Ideal.hostScatterAdd d x idx upd i := rfl

/-- The scattered message sums: component k of the sum of the messages of the edges into node n. -/
theorem v27_at (hr : InRange ei) (n : Fin 500000) (k : Fin 4) :
    val_main_v27 (F := Ideal) pos ei (ix2 n k)
      = Cert.MeanMsg.zero + segSum ei n (fun e => msgAt (endpoint pos ei 0) (endpoint pos ei 1) e ⟨k.val, by omega⟩) := by
  unfold val_main_v27
  rw [scatterAdd_ideal]
  rw [show scatter_S500000x4_S16000000x1_S16000000x4_1_0_0_1
      = (⟨[1], [0], [0], 1, Facts₀.scatter_S500000x4_S16000000x1_S16000000x4_1_0_0_1_wf⟩ :
          ScatterDims S500000x4 S16000000x1 S16000000x4) from rfl]
  rw [Cert.LibScatterSum.scatterAdd_rows (N := 500000) (K := 4) (E := 16000000)]
  rw [val_main_v25_apply, val_main_cst_3_apply, filter26]
  exact congrArg (_ + ·) (Finset.sum_congr rfl fun e _ => v24_at pos ei hr e k)

/-- The scattered counts: the number of edges into node n, as a sum of ones. -/
theorem v31_at (n : Fin 500000) :
    val_main_v31 (F := Ideal) ei (ix1 n) = Cert.MeanMsg.zero + segSum ei n (fun _ => Cert.MeanMsg.one) := by
  unfold val_main_v31
  rw [scatterAdd_ideal]
  rw [show scatter_S500000_S16000000x1_S16000000_n_0_0_1
      = (⟨[], [0], [0], 1, Facts₀.scatter_S500000_S16000000x1_S16000000_n_0_0_1_wf⟩ :
          ScatterDims S500000 S16000000x1 S16000000) from rfl]
  rw [Cert.LibScatterSum.scatterAdd_vec (N := 500000) (E := 16000000)]
  rw [val_main_v29_apply, val_main_cst_5_apply, filter30]
  exact congrArg (_ + ·) (Finset.sum_congr rfl fun e _ => by rw [val_main_v28_apply, val_main_cst_4_apply]; rfl)

/-- The mean message of node n, component k. -/
theorem v36_at (hr : InRange ei) (n : Fin 500000) (k : Fin 4) :
    val_main_v36 (F := Ideal) pos ei (ix2 n k)
      = Ideal.div (Cert.MeanMsg.zero + segSum ei n (fun e => msgAt (endpoint pos ei 0) (endpoint pos ei 1) e ⟨k.val, by omega⟩))
          (max (Cert.MeanMsg.zero + segSum ei n (fun _ => Cert.MeanMsg.one)) Cert.MeanMsg.one) := by
  rw [val_main_v36_apply, v27_at pos ei hr, val_main_v35_apply, val_main_v34_apply, val_main_v33_apply,
    show idx_main_v34 (idx_main_v35 (ix2 n k)) = ix1 n from funext fun a => by match a with | ⟨0, _⟩ => rfl,
    v31_at, val_main_v32_apply, val_main_cst_6_apply, Ideal.hostDivf_def, Ideal.maximumf_def, Ideal.ofBits_def]

/-- THE CORE: under the range hypothesis the reference's stages compose to the specification's function. -/
theorem val_eq_G (hr : InRange ei) : val_main_v37 (F := Ideal) pos ei = G pos ei := by
  funext j
  obtain ⟨n, k, rfl⟩ : ∃ (n : Fin 500000) (k : Fin 6), j = ix2 n k := ⟨j 0, j 1, eq_ix2 j⟩
  unfold val_main_v37
  by_cases hk : k.val < 4
  · have hG : G pos ei (ix2 n k)
        = Ideal.div (Cert.MeanMsg.zero + segSum ei n (fun e => msgAt (endpoint pos ei 0) (endpoint pos ei 1) e ⟨k.val, by omega⟩))
            (max (Cert.MeanMsg.zero + segSum ei n (fun _ => Cert.MeanMsg.one)) Cert.MeanMsg.one) := dif_pos hk
    rw [hG]
    refine (concatenate_pair_apply_left (t := S500000x6) (s₁ := S500000x4) (s₂ := S500000x2) (1 : Fin 2)
      (val_main_v36 (F := Ideal) pos ei) pos Facts₀.concatenates_S500000x4_S500000x2_S500000x6_d1
      (ix2 n k) rfl (ix2 n (⟨k.val, hk⟩ : Fin 4)) (fun b => by match b with | ⟨0, _⟩ => rfl | ⟨1, _⟩ => rfl)).trans ?_
    exact v36_at pos ei hr n ⟨k.val, hk⟩
  · have h6 : k.val < 6 := k.isLt
    have hG : G pos ei (ix2 n k) = pos (ix2 n (⟨k.val - 4, by omega⟩ : Fin 2)) := dif_neg hk
    rw [hG]
    exact concatenate_pair_apply_right (t := S500000x6) (s₁ := S500000x4) (s₂ := S500000x2) (1 : Fin 2)
      (val_main_v36 (F := Ideal) pos ei) pos Facts₀.concatenates_S500000x4_S500000x2_S500000x6_d1
      (ix2 n k) rfl rfl (ix2 n (⟨k.val - 4, by omega⟩ : Fin 2))
      (fun b hb => by match b with | ⟨0, _⟩ => rfl | ⟨1, _⟩ => exact absurd rfl hb)
      (by show k.val - 4 + 4 = k.val; omega)

/-- Under the index-range hypothesis the reference's result is the specification's function of its two arguments. -/
theorem reference_result
    (m : (ℓ : Loc Cert.ReferenceIdeal.nD Cert.ReferenceIdeal.τ Cert.ReferenceIdeal.sig) → Buf (Elt Ideal) ℓ) (c : Dev Cert.ReferenceIdeal.nD)
    (hr : Cert.MeanMsg.InRange (m ((c.tc : Thread Cert.ReferenceIdeal.nD Cert.ReferenceIdeal.τ).loc Cert.ReferenceIdeal.main_arg1))) :
    Cert.ReferenceIdeal.ValueP.res_out0 (F := Ideal) m c
      = Cert.MeanMsg.G (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) :=
  (val_main_v37_eq (F := Ideal) m c).trans (val_eq_G _ _ hr)

end Cert.RefSide

end
-- ==== Proof.PreRange.lean ====
/-
  THE INTEGER HALF OF THE PRECONDITION, READ BACK. The precondition is the conjunction of two "all" tests: every entry of the
  float array is finite, and every word w of the index array satisfies 0 ≤ w and w < 500000, both compared signed. Its
  value is a one-bit scalar, the "and" of two and-reductions over all axes, and the claim's hypothesis says that scalar
  is 1. An "and" that is 1 has both operands 1; an and-reduction over all axes that is 1 met a 1 at every operand
  index; so at every index i the word "0 ≤ w i and w i < 500000" is 1, and a signed comparison word that is 1 says its
  operands, read as integers, are so ordered. Hence every index word, read signed, lies in [0, 500000).
-/
import proofs.«423772_j49237505081482_3_alg».proof.Defs
import Idealize.ShloMosaic.Lib.ReduceAll
import Idealize.ShloMosaic.Lib.StableHlo.Predicate
import Idealize.ShloMosaic.Lib.ValueIdx

noncomputable section

namespace Cert.PreRange

open Idealize.ShloMosaic Idealize.SL.Sem

/-- The scalar shape has one index. -/
instance : Subsingleton Cert.Pre_finite_inputs.S_.Idx := ⟨fun a b => funext fun d => d.elim0⟩

/-- A word that tests 0 ≤ w and w < 500000, both signed, reads signed as an integer of [0, 500000). -/
theorem word_range (w : BitVec 32)
    (h : IntOp.andi (IntOp.cmpi .sge w 0#32) (IntOp.cmpi .slt w 500000#32) = 1#1) :
    0 ≤ w.toInt ∧ w.toInt < 500000 := by
  obtain ⟨h0, h1⟩ := IntOp.andi_eq_one.1 h
  rw [IntOp.cmpi_sge, show (0#32 : BitVec 32).toInt = 0 from by decide] at h0
  rw [IntOp.cmpi_slt, show (500000#32 : BitVec 32).toInt = 500000 from by decide] at h1
  exact ⟨h0, h1⟩

/-- THE CORE: if the printed precondition of a float array and an index array is 1, every index word is in range. -/
theorem range_of_fn [hPre : Cert.Pre_finite_inputs.Facts] {F : FTy → Type} [FloatOps F]
    (pos : FVec F Cert.Pre_finite_inputs.S500000x2 .f32) (ei : IVec Cert.Pre_finite_inputs.S2x16000000 32)
    (h : Cert.Pre_finite_inputs.fn (F := F) pos ei = fun _ => 1#1) (i : Cert.Pre_finite_inputs.S2x16000000.Idx) :
    0 ≤ (ei i).toInt ∧ (ei i).toInt < 500000 := by
  have e := congrFun h ValueIdx.ix0
  dsimp only [Cert.Pre_finite_inputs.fn] at e
  -- the scalar is the "and" of the two reductions: keep the second, the integer one
  have e2 := (IntOp.andi_eq_one.1 e).2
  -- an and-reduction over all axes that is 1 met a 1 at index i
  have ei1 := Host.reduce_andi_all _ _ _ _ _ e2 i
  exact word_range (ei i) ei1

/-- Under the precondition every index word, read signed, names a node: it lies in [0, 500000). -/
theorem range_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2x16000000.Idx) :
    0 ≤ ((m ((c.tc : Thread Cert.KernelIdeal.nD Cert.KernelIdeal.τ).loc Cert.KernelIdeal.main_arg1) : IVec Cert.KernelIdeal.S2x16000000 32) i).toInt
    ∧ ((m ((c.tc : Thread Cert.KernelIdeal.nD Cert.KernelIdeal.τ).loc Cert.KernelIdeal.main_arg1) : IVec Cert.KernelIdeal.S2x16000000 32) i).toInt < 500000 :=
  range_of_fn (F := Ideal) _ _ (hpre c) i

end Cert.PreRange

end
-- ==== Proof.lean ====
/-
  The certificate: a message-passing layer on a graph with 500000 nodes in the plane and 16000000 directed edges.

  Both programs compute, for every node n, the MEAN over the edges e into n of the message
      (d, d / (‖d‖ + ε)),   d = pos (source e) − pos (target e),   ‖d‖ = √(d₀² + d₁²),   ε = f32(1e-6),
  (zero where no edge points at n: the sum over the count clamped below by one), followed by the node's own coordinates.

  The kernel program gathers the endpoint rows on the host, computes the messages block by block on the grid (125 blocks
  of 128000 edges) into a [5, E] array whose fifth row is the constant one, scatter-adds that array ONCE along the edge
  axis at the target words, and divides the first four rows by the fifth clamped below by one. The reference gathers,
  computes the messages [E, 4], scatter-adds them and a vector of ones separately, and divides. Over the extended reals
  the two are the same function: every sum involved is a finite sum in a commutative monoid, so its order and its grouping
  by rows or by columns do not matter, and no step needs the inputs to be finite. What the equality DOES need is that every
  index word names a node (0 ≤ w < 500000, the second conjunct of the precondition): the kernel scatters at a wrapped
  target word and fills an out-of-range gather with a constant, the reference scatters at the raw word and clamps, and
  the two agree exactly on words in range.

  Proof/Spec.lean states the common function `G`; Proof/KernelValue.lean (over KernelRegion, KernelTake, KernelTail) shows
  the kernel's result buffer ends at `G`; Proof/RefSide.lean shows the reference's does; Proof/PreRange.lean reads the index
  range out of the precondition; Proof/LibScatterSum.lean is the one law both sides use: an accumulating scatter along one
  axis, read at an index, is the operand plus the sum of the updates whose index word reads that coordinate.
-/
import proofs.«423772_j49237505081482_3_alg».proof.Defs
import proofs.«423772_j49237505081482_3_alg».proof.Proof.Gen.Kernel
import proofs.«423772_j49237505081482_3_alg».proof.Proof.Gen.Kernel.Frame
import proofs.«423772_j49237505081482_3_alg».proof.Proof.Gen.KernelIdeal
import proofs.«423772_j49237505081482_3_alg».proof.Proof.Gen.KernelIdeal.Frame
import proofs.«423772_j49237505081482_3_alg».proof.Proof.Gen.ReferenceIdeal
import proofs.«423772_j49237505081482_3_alg».proof.Proof.Gen.Pre_finite_inputs
import proofs.«423772_j49237505081482_3_alg».proof.Proof.KernelValue
import proofs.«423772_j49237505081482_3_alg».proof.Proof.RefSide
import proofs.«423772_j49237505081482_3_alg».proof.Proof.PreRange
import Idealize.ShloMosaic.Adequacy
import Idealize.ShloMosaic.Init

noncomputable section

namespace Cert.Proof

open Idealize.ShloMosaic Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments and satisfy the precondition, both idealized programs end with the
    specification's function of the arguments in their result buffers. -/
theorem algebraic : Cert.algebraic_KernelIdeal_ReferenceIdeal := by
  intro m ρ m' ρ' hpre hagree
  have hr : ∀ c : Dev Cert.KernelIdeal.nD,
      Cert.MeanMsg.InRange (m ((c.tc : Thread Cert.KernelIdeal.nD Cert.KernelIdeal.τ).loc Cert.KernelIdeal.main_arg1)) :=
    fun c i => Cert.PreRange.range_of_pre m hpre c i
  refine ⟨fun c => Cert.MeanMsg.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ hr, ?_⟩
  refine (θ_run Cert.ReferenceIdeal.defs _ _).mono (fun _ h c => ⟨(h c).1.trans ?_, (h c).2⟩)
    (Cert.ReferenceIdeal.ValueP.run (F := Ideal) m' ρ')
  have hr' : Cert.MeanMsg.InRange
      (m' ((c.tc : Thread Cert.ReferenceIdeal.nD Cert.ReferenceIdeal.τ).loc Cert.ReferenceIdeal.main_arg1)) := by
    rw [(hagree c).2]; exact hr c
  refine (Cert.RefSide.reference_result m' c hr').trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
